-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192x8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := sitofp .f32 main_arg1
  let main_cst_0 : FVec F S_ .f32 := constant S_ .f32 0x00000000#32
  let main_v5 : FVec F S8192 .f32 := (fun x v => Host.reduceAdd x v reducesTo_S8192x8192_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .une main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x512 : Shape := ⟨2, ![8192, 512]⟩
abbrev S8192x8192 : Shape := ⟨2, ![8192, 8192]⟩
abbrev S8192 : Shape := ⟨1, ![8192]⟩
abbrev S2048x512 : Shape := ⟨2, ![2048, 512]⟩
abbrev S256x512 : Shape := ⟨2, ![256, 512]⟩
abbrev S2048x256 : Shape := ⟨2, ![2048, 256]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S512x256 : Shape := ⟨2, ![512, 256]⟩
abbrev S_ : Shape := ⟨0, ![]⟩
abbrev S512 : Shape := ⟨1, ![512]⟩
abbrev S1x512 : Shape := ⟨2, ![1, 512]⟩

abbrev nBuf : Space → Nat
  | .hbm => 23
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S256x512, .f32⟩
  | .local _ .vmem, ⟨4, _⟩ => ⟨S2048x256, .i32⟩
  | .local _ .vmem, ⟨5, _⟩ => ⟨S2048x256, .i32⟩
  | .local _ .vmem, ⟨6, _⟩ => ⟨S2048, .f32⟩
  | .local _ .vmem, ⟨7, _⟩ => ⟨S2048, .f32⟩
  | .local _ .vmem, ⟨8, _⟩ => ⟨S2048x1, .f32⟩
  | .local _ .vmem, ⟨9, _⟩ => ⟨S2048x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v43 : BitVec 1 := Scalar.cmpi .eq arg1 c31_i32
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  reduces_S2048x512_S2048 : S2048x512.Reduces [1] S2048
  shapeCasts_S2048_S2048x1 : S2048.ShapeCasts S2048x1
  reduces_S256x512_S256 : S256x512.Reduces [1] S256
  shapeCasts_S256_S1x256 : S256.ShapeCasts S1x256
  transposes_S256x512_p1_0_S512x256 : S256x512.Transposes [1, 0] S512x256
  broadcasts_S2048x1_S2048x256 : S2048x1.Broadcasts S2048x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048x1_S2048 : S2048x1.ShapeCasts S2048
  inb_S2048_S2048_0 : ∀ a, (![0] : Fin 1 → Nat) a + S2048.size a ≤ S2048.size a
  h_S2048 : 0 < S2048.numel
  reducesTo_S8192_S_d0 : S8192.ReducesTo [0] S_
  h_S_ : 0 < S_.numel
  reducesTo_S8192x512_S512_d0 : S8192x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x8192.size a
  hwx0_2 : ∀ i : grid0.Coords, EltTy.bits .i32 = 32 ∨ (Rect.block (s := S8192x8192) S2048x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S8192.size a
  hwx0_3 : ∀ i : grid0.Coords, EltTy.bits .f32 = 32 ∨ (Rect.block (s := S8192) S2048.size (cc0_transform_3 i) (hinb0_3 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S512x8192 : Shape := ⟨2, ![512, 8192]⟩
abbrev S8192x1 : Shape := ⟨2, ![8192, 1]⟩
abbrev S1x8192 : Shape := ⟨2, ![1, 8192]⟩
abbrev S512 : Shape := ⟨1, ![512]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S512x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192x8192_S_d0_1 : S8192x8192.ReducesTo [0, 1] S_
  reducesTo_S8192x512_S512_d0 : S8192x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KB.Shared.lean ====
/-
  What the three control cases of the neighbourhood kernel's body share.

  The grid is 4 × 32: point `t` is row block `t / 32`, column block `t % 32`. The body resets its two
  running sums (the weighted distance sum and the degree, one entry per row of the block) when the
  column block is 0, adds the current tile's row sums at every point, and at column block 31 divides the
  two and stores the quotient into the output block. So the body has three cases over the grid:
  first column block (reset, add), a middle one (add), last one (add, divide, store). The two branch
  conditions are decided over the 128 points in closed form, the output window is idle (nothing stored,
  nothing written back) except at the last column block, and the input windows are never idle.
-/
import proofs.«178589_j75651553951784_1_alg».proof.Proof.Gen.Kernel.Launch
import proofs.«178589_j75651553951784_1_alg».proof.Proof.Gen.Kernel.Skeleton
import proofs.«178589_j75651553951784_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The branch conditions -/

/-- "the column block is the first": the reset branch's condition, from the grid coordinates. -/
abbrev condFirst (i : grid0.Coords) : Prop :=
  (Scalar.cmpi .ne (Scalar.extui (Scalar.cmpi .eq (BitVec.ofNat 32 (i 1).val) 0#32)) 0#32) = 1#1
/-- It holds exactly at the points ≡ 0 (mod 32). -/
theorem hcondFirst : ∀ t : Fin cfg0.N, condFirst (grid0.coords t) ↔ t.val % 32 = 0 :=
  (by decide +kernel : ∀ t : Fin grid0.N, condFirst (grid0.coords t) ↔ t.val % 32 = 0)

/-- "the column block is the last": the divide-and-store branch's condition. -/
abbrev condLast (i : grid0.Coords) : Prop := k0_cond2 i = 1#1
/-- It holds exactly at the points ≡ 31 (mod 32). -/
theorem hcondLast : ∀ t : Fin cfg0.N, condLast (grid0.coords t) ↔ t.val % 32 = 31 :=
  (by decide +kernel : ∀ t : Fin grid0.N, condLast (grid0.coords t) ↔ t.val % 32 = 31)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- Off the last column block nothing is stored into the output block and it is not written back. -/
theorem idle_out : ∀ t : Fin cfg0.N, ¬condLast (grid0.coords t) → cfg0.idle 3 (grid0.coords t) = true := by decide +kernel
theorem noFlush_out : ∀ t : Fin cfg0.N, ¬condLast (grid0.coords t) → (cfg0.win 3).flush t = false := by decide +kernel
/-- At the last column block the output block is stored. -/
theorem live_out : ∀ t : Fin cfg0.N, condLast (grid0.coords t) → cfg0.idle 3 (grid0.coords t) = false := by decide +kernel

/-! ## The memrefs the body is called with -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048 .f32 := win0_3.stage (cfg0.slots t 3)
abbrev hs3 (t : Fin cfg0.N) : (ms3 t).IsWhole := hstage0_3 ((cfg0.slots t 3).cast nbuf0_3)
/-- The two running sums' buffers: the weighted distance sums and the degrees. -/
abbrev scNum : Memref sig .tc .vmem S2048x1 .f32 := Memref.whole cc0_scratch0
abbrev scDeg : Memref sig .tc .vmem S2048x1 .f32 := Memref.whole cc0_scratch1
abbrev VNum : View sig .tc .vmem S2048x1 .f32 := scNum.view
abbrev VDeg : View sig .tc .vmem S2048x1 .f32 := scDeg.view
/-- One staging buffer of the output window, through which its contents are stated. -/
abbrev VOut : View sig .tc .vmem S2048 .f32 := (Memref.whole cc0_stg3_0 : Memref sig .tc .vmem S2048 .f32).view

/-- What the region lends the body besides the windows: the two running-sum buffers at some contents and
    the generator register at some state. -/
theorem PhiA_eq (c : Dev nD) :
    (Pipeline.ΦA spec0 c : sProp 𝕄)
      = iprop(iprop((∃ d, owns (c : Thread nD τ) scNum fullShare d) ∗ (∃ d, owns (c : Thread nD τ) scDeg fullShare d)) ∗ (∃ r, prngReg c r)) := by
  unfold Pipeline.ΦA; rw [scopedRest0_eq]; simp only [scNum, scDeg, owns_whole]; try rfl

end Cert.Kernel.Hand

end
-- ==== Proof.KB.RunFirst.lean ====
/-
  The body at the FIRST column block: the reset branch is taken, the divide-and-store branch is not. On
  whole memrefs — the three input blocks at their contents, the output block's buffer at any contents and
  handed back untouched, the two running sums at ANY contents (they are reset before they are read) — the
  body runs to the end, each running sum's buffer with its stores written (the reset, then the first
  tile's sums added). The pieces stored are found by the run itself.
-/
import proofs.«178589_j75651553951784_1_alg».proof.Proof.KB.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
noncomputable def runFirst (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i)
    (x0 : Vec F S2048x512 .f32) (x1 : Vec F S256x512 .f32) (x2 : Vec F S2048x256 .i32) :
    Σ' (LS0 : List (View.Piece (Elt F) S2048x1 .f32)), { LS1 : List (View.Piece (Elt F) S2048x1 .f32) //
      ∀ (xi3 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__neighborhood_kernel i arg2 harg2 arg3 harg3 arg4 harg4 arg5 harg5 arg6 harg6 arg7 harg7) K } := by
  refine ⟨?_, ?_, fun xi3 E K => ?run⟩
  case run =>
    simp only [cc0__neighborhood_kernel_eq_skeleton]; unfold cc0__neighborhood_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KB.RunMid.lean ====
/-
  The body at a MIDDLE column block (neither the first nor the last): both branches fall through. On whole
  memrefs — the three input blocks at their contents, the output block's buffer at any contents and handed
  back untouched, the two running sums at what the point before left — the body runs to the end, the inputs
  as they were, each running sum's buffer with its one store written. The pieces stored are found by the
  run itself.
-/
import proofs.«178589_j75651553951784_1_alg».proof.Proof.KB.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
noncomputable def runMid (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i)
    (x0 : Vec F S2048x512 .f32) (x1 : Vec F S256x512 .f32) (x2 : Vec F S2048x256 .i32) (xs0 xs1 : Vec F S2048x1 .f32) :
    Σ' (LS0 : List (View.Piece (Elt F) S2048x1 .f32)), { LS1 : List (View.Piece (Elt F) S2048x1 .f32) //
      ∀ (xi3 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__neighborhood_kernel i arg2 harg2 arg3 harg3 arg4 harg4 arg5 harg5 arg6 harg6 arg7 harg7) K } := by
  refine ⟨?_, ?_, fun xi3 E K => ?run⟩
  case run =>
    simp only [cc0__neighborhood_kernel_eq_skeleton]; unfold cc0__neighborhood_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KB.RunLast.lean ====
/-
  The body at the LAST column block: the reset branch is not taken, the divide-and-store branch is. On
  whole memrefs — the three input blocks at their contents, the output block's buffer at any contents, the
  two running sums at what the point before left — the body runs to the end, each running sum's buffer
  with its store written and the output block's buffer with the quotient stored. The pieces stored are
  found by the run itself.
-/
import proofs.«178589_j75651553951784_1_alg».proof.Proof.KB.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
noncomputable def runLast (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i)
    (x0 : Vec F S2048x512 .f32) (x1 : Vec F S256x512 .f32) (x2 : Vec F S2048x256 .i32) (xs0 xs1 : Vec F S2048x1 .f32) :
    Σ' (L3 : List (View.Piece (Elt F) S2048 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__neighborhood_kernel i arg2 harg2 arg3 harg3 arg4 harg4 arg5 harg5 arg6 harg6 arg7 harg7) K } := by
  refine ⟨?_, ?_, ?_, fun E K => ?run⟩
  case run =>
    simp only [cc0__neighborhood_kernel_eq_skeleton]; unfold cc0__neighborhood_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.KB.Body.lean ====
/-
  The neighbourhood kernel's body over the whole grid.

  What each control case leaves in the two running-sum buffers and (at the last column block) in the
  output block is read back from the pieces its run stored. `outsAt` follows the buffers from point to
  point: at a first column block the sums restart from the reset, elsewhere they continue from what the
  point before left; the output block is stored only at a last column block. The invariant between
  points holds the two running sums at exactly those contents (at anything before the first point), and
  the generator register. The embedding table is read through two windows (a 2048-row block and a
  256-row block of the SAME array), so its two windows hold it at the two halves of the full share; the
  adjacency table and the result vector are held whole. With that, the body obligation holds at every
  point: the inputs' buffers hold their blocks, fetched there or not, and the case the point is in runs.
  Everything is stated at a parameter `V`, the TensorCore's buffer contents when the region is entered.
-/
import proofs.«178589_j75651553951784_1_alg».proof.Proof.KB.RunFirst
import proofs.«178589_j75651553951784_1_alg».proof.Proof.KB.RunMid
import proofs.«178589_j75651553951784_1_alg».proof.Proof.KB.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The output block's buffer where nothing is stored into it: a placeholder nothing consults (off the
    last column block the window is neither written back nor read at the next point). -/
def outIdle : Vec F S2048 .f32 := VOut.read (Elt F) VOut.junk

/-- First column block: each running sum's stores cover its buffer, -/
theorem coverFirstNum (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) (y : S2048x1.Idx) :
    ∃ pc ∈ (runFirst c i arg2 harg2 arg3 harg3 arg4 harg4 arg5 harg5 arg6 harg6 arg7 harg7 hc0 hc1 x0 x1 x2).1, y ∈ pc.1.set :=
  View.cover_of_tiledL (runFirst c i arg2 harg2 arg3 harg3 arg4 harg4 arg5 harg5 arg6 harg6 arg7 harg7 hc0 hc1 x0 x1 x2).1 S2048x1.size (by sl_kernel_rfl) y
theorem coverFirstDeg (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) (y : S2048x1.Idx) :
    ∃ pc ∈ (runFirst c i arg2 harg2 arg3 harg3 arg4 harg4 arg5 harg5 arg6 harg6 arg7 harg7 hc0 hc1 x0 x1 x2).2.1, y ∈ pc.1.set :=
  View.cover_of_tiledL (runFirst c i arg2 harg2 arg3 harg3 arg4 harg4 arg5 harg5 arg6 harg6 arg7 harg7 hc0 hc1 x0 x1 x2).2.1 S2048x1.size (by sl_kernel_rfl) y
/-- and what they leave there. -/
def numFirst (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) : Vec F S2048x1 .f32 :=
  VNum.read (Elt F) (VNum.writes (Elt F) VNum.junk (runFirst c i arg2 harg2 arg3 harg3 arg4 harg4 arg5 harg5 arg6 harg6 arg7 harg7 hc0 hc1 x0 x1 x2).1)
def degFirst (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) : Vec F S2048x1 .f32 :=
  VDeg.read (Elt F) (VDeg.writes (Elt F) VDeg.junk (runFirst c i arg2 harg2 arg3 harg3 arg4 harg4 arg5 harg5 arg6 harg6 arg7 harg7 hc0 hc1 x0 x1 x2).2.1)

/-- A middle column block: the same, over what the point before left. -/
theorem coverMidNum (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) (y : S2048x1.Idx) :
    ∃ pc ∈ (runMid c i arg2 harg2 arg3 harg3 arg4 harg4 arg5 harg5 arg6 harg6 arg7 harg7 hc0 hc1 x0 x1 x2 xs0 xs1).1, y ∈ pc.1.set :=
  View.cover_of_tiledL (runMid c i arg2 harg2 arg3 harg3 arg4 harg4 arg5 harg5 arg6 harg6 arg7 harg7 hc0 hc1 x0 x1 x2 xs0 xs1).1 S2048x1.size (by sl_kernel_rfl) y
theorem coverMidDeg (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) (y : S2048x1.Idx) :
    ∃ pc ∈ (runMid c i arg2 harg2 arg3 harg3 arg4 harg4 arg5 harg5 arg6 harg6 arg7 harg7 hc0 hc1 x0 x1 x2 xs0 xs1).2.1, y ∈ pc.1.set :=
  View.cover_of_tiledL (runMid c i arg2 harg2 arg3 harg3 arg4 harg4 arg5 harg5 arg6 harg6 arg7 harg7 hc0 hc1 x0 x1 x2 xs0 xs1).2.1 S2048x1.size (by sl_kernel_rfl) y
def numMid (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) : Vec F S2048x1 .f32 :=
  VNum.read (Elt F) (VNum.writes (Elt F) VNum.junk (runMid c i arg2 harg2 arg3 harg3 arg4 harg4 arg5 harg5 arg6 harg6 arg7 harg7 hc0 hc1 x0 x1 x2 xs0 xs1).1)
def degMid (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) : Vec F S2048x1 .f32 :=
  VDeg.read (Elt F) (VDeg.writes (Elt F) VDeg.junk (runMid c i arg2 harg2 arg3 harg3 arg4 harg4 arg5 harg5 arg6 harg6 arg7 harg7 hc0 hc1 x0 x1 x2 xs0 xs1).2.1)

/-- The last column block: the output block is stored too. -/
theorem coverLastOut (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) (y : S2048.Idx) :
    ∃ pc ∈ (runLast c i arg2 harg2 arg3 harg3 arg4 harg4 arg5 harg5 arg6 harg6 arg7 harg7 hc0 hc1 x0 x1 x2 xs0 xs1).1, y ∈ pc.1.set :=
  View.cover_of_tiledL (runLast c i arg2 harg2 arg3 harg3 arg4 harg4 arg5 harg5 arg6 harg6 arg7 harg7 hc0 hc1 x0 x1 x2 xs0 xs1).1 S2048.size (by sl_kernel_rfl) y
theorem coverLastNum (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) (y : S2048x1.Idx) :
    ∃ pc ∈ (runLast c i arg2 harg2 arg3 harg3 arg4 harg4 arg5 harg5 arg6 harg6 arg7 harg7 hc0 hc1 x0 x1 x2 xs0 xs1).2.1, y ∈ pc.1.set :=
  View.cover_of_tiledL (runLast c i arg2 harg2 arg3 harg3 arg4 harg4 arg5 harg5 arg6 harg6 arg7 harg7 hc0 hc1 x0 x1 x2 xs0 xs1).2.1 S2048x1.size (by sl_kernel_rfl) y
theorem coverLastDeg (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) (y : S2048x1.Idx) :
    ∃ pc ∈ (runLast c i arg2 harg2 arg3 harg3 arg4 harg4 arg5 harg5 arg6 harg6 arg7 harg7 hc0 hc1 x0 x1 x2 xs0 xs1).2.2.1, y ∈ pc.1.set :=
  View.cover_of_tiledL (runLast c i arg2 harg2 arg3 harg3 arg4 harg4 arg5 harg5 arg6 harg6 arg7 harg7 hc0 hc1 x0 x1 x2 xs0 xs1).2.2.1 S2048x1.size (by sl_kernel_rfl) y
def outLast (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) : Vec F S2048 .f32 :=
  VOut.read (Elt F) (VOut.writes (Elt F) VOut.junk (runLast c i arg2 harg2 arg3 harg3 arg4 harg4 arg5 harg5 arg6 harg6 arg7 harg7 hc0 hc1 x0 x1 x2 xs0 xs1).1)
def numLast (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) : Vec F S2048x1 .f32 :=
  VNum.read (Elt F) (VNum.writes (Elt F) VNum.junk (runLast c i arg2 harg2 arg3 harg3 arg4 harg4 arg5 harg5 arg6 harg6 arg7 harg7 hc0 hc1 x0 x1 x2 xs0 xs1).2.1)
def degLast (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) : Vec F S2048x1 .f32 :=
  VDeg.read (Elt F) (VDeg.writes (Elt F) VDeg.junk (runLast c i arg2 harg2 arg3 harg3 arg4 harg4 arg5 harg5 arg6 harg6 arg7 harg7 hc0 hc1 x0 x1 x2 xs0 xs1).2.2.1)

/-! ## The accumulation over the points -/

/-- What the output block's buffer and the two running sums hold after the body at position `n`: the case
    the closed forms select there, run at the point's memrefs and input blocks, the running sums read at
    what position `n - 1` left. -/
def outsAt (c : Dev nD) : (n : ℕ) → n < cfg0.N → Vec F S2048 .f32 × Vec F S2048x1 .f32 × Vec F S2048x1 .f32
  | 0, hn => (outIdle,
      numFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scNum (Memref.isWhole_whole _) scDeg (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩),
      degFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scNum (Memref.isWhole_whole _) scDeg (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 32 = 0 then
      (outIdle,
        numFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) ((hcondFirst ⟨n + 1, hn⟩).mpr h0) (fun h => (fun h => by (try dsimp only at h); omega) ((hcondLast ⟨n + 1, hn⟩).mp h)) (iblk V c 0 ⟨n + 1, hn⟩) (iblk V c 1 ⟨n + 1, hn⟩) (iblk V c 2 ⟨n + 1, hn⟩),
        degFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) ((hcondFirst ⟨n + 1, hn⟩).mpr h0) (fun h => (fun h => by (try dsimp only at h); omega) ((hcondLast ⟨n + 1, hn⟩).mp h)) (iblk V c 0 ⟨n + 1, hn⟩) (iblk V c 1 ⟨n + 1, hn⟩) (iblk V c 2 ⟨n + 1, hn⟩))
    else
      if h1 : (n + 1) % 32 = 31 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2,
          numLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2,
          degLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)
      else
        (outIdle,
          numMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2,
          degMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)

/-- What the point before `t` left. -/
abbrev prevAt (c : Dev nD) (t : Fin cfg0.N) := outsAt V c (t.val - 1) (Nat.lt_of_le_of_lt (Nat.sub_le _ _) t.isLt)

/-- `outsAt` at a first column block. -/
theorem outsAt_first (c : Dev nD) (t : Fin cfg0.N) (h0 : t.val % 32 = 0) (h1 : ¬t.val % 32 = 31) :
    outsAt V c t.val t.isLt = (outIdle,
      numFirst c (grid0.coords t) (ms0 t) (hs0 t) (ms1 t) (hs1 t) (ms2 t) (hs2 t) (ms3 t) (hs3 t) scNum (Memref.isWhole_whole _) scDeg (Memref.isWhole_whole _) ((hcondFirst t).mpr h0) (fun h => h1 ((hcondLast t).mp h)) (iblk V c 0 t) (iblk V c 1 t) (iblk V c 2 t),
      degFirst c (grid0.coords t) (ms0 t) (hs0 t) (ms1 t) (hs1 t) (ms2 t) (hs2 t) (ms3 t) (hs3 t) scNum (Memref.isWhole_whole _) scDeg (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans rfl

/-- `outsAt` at a middle column block, over what the point before left. -/
theorem outsAt_mid (c : Dev nD) (t : Fin cfg0.N) (h0 : ¬t.val % 32 = 0) (h1 : ¬t.val % 32 = 31) :
    outsAt V c t.val t.isLt = (outIdle,
      numMid c (grid0.coords t) (ms0 t) (hs0 t) (ms1 t) (hs1 t) (ms2 t) (hs2 t) (ms3 t) (hs3 t) scNum (Memref.isWhole_whole _) scDeg (Memref.isWhole_whole _) (fun h => h0 ((hcondFirst t).mp h)) (fun h => h1 ((hcondLast t).mp h)) (iblk V c 0 t) (iblk V c 1 t) (iblk V c 2 t) (prevAt V c t).2.1 (prevAt V c t).2.2,
      degMid c (grid0.coords t) (ms0 t) (hs0 t) (ms1 t) (hs1 t) (ms2 t) (hs2 t) (ms3 t) (hs3 t) scNum (Memref.isWhole_whole _) scDeg (Memref.isWhole_whole _) (fun h => h0 ((hcondFirst t).mp h)) (fun h => h1 ((hcondLast t).mp h)) (iblk V c 0 t) (iblk V c 1 t) (iblk V c 2 t) (prevAt V c t).2.1 (prevAt V c t).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a last column block, over what the point before left. -/
theorem outsAt_last (c : Dev nD) (t : Fin cfg0.N) (h0 : ¬t.val % 32 = 0) (h1 : t.val % 32 = 31) :
    outsAt V c t.val t.isLt = (
      outLast c (grid0.coords t) (ms0 t) (hs0 t) (ms1 t) (hs1 t) (ms2 t) (hs2 t) (ms3 t) (hs3 t) scNum (Memref.isWhole_whole _) scDeg (Memref.isWhole_whole _) (fun h => h0 ((hcondFirst t).mp h)) ((hcondLast t).mpr h1) (iblk V c 0 t) (iblk V c 1 t) (iblk V c 2 t) (prevAt V c t).2.1 (prevAt V c t).2.2,
      numLast c (grid0.coords t) (ms0 t) (hs0 t) (ms1 t) (hs1 t) (ms2 t) (hs2 t) (ms3 t) (hs3 t) scNum (Memref.isWhole_whole _) scDeg (Memref.isWhole_whole _) (fun h => h0 ((hcondFirst t).mp h)) ((hcondLast t).mpr h1) (iblk V c 0 t) (iblk V c 1 t) (iblk V c 2 t) (prevAt V c t).2.1 (prevAt V c t).2.2,
      degLast c (grid0.coords t) (ms0 t) (hs0 t) (ms1 t) (hs1 t) (ms2 t) (hs2 t) (ms3 t) (hs3 t) scNum (Memref.isWhole_whole _) scDeg (Memref.isWhole_whole _) (fun h => h0 ((hcondFirst t).mp h)) ((hcondLast t).mpr h1) (iblk V c 0 t) (iblk V c 1 t) (iblk V c 2 t) (prevAt V c t).2.1 (prevAt V c t).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the very start whatever the region lends; afterwards the two running sums at
    what the point before left, and the generator register at some state. -/
def PhiS (c : Dev nD) : (n : ℕ) → n ≤ cfg0.N → sProp 𝕄
  | 0, _ => Pipeline.ΦA spec0 c
  | n + 1, hn => iprop(iprop(owns (c : Thread nD τ) scNum fullShare ((outsAt V c n hn).2.1) ∗ owns (c : Thread nD τ) scDeg fullShare ((outsAt V c n hn).2.2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scNum fullShare ((outsAt V c n hn).2.1) ∗ owns (c : Thread nD τ) scDeg fullShare ((outsAt V c n hn).2.2)) ∗ (∃ r, prngReg c r)) := rfl

theorem PhiS_pos (c : Dev nD) (n : ℕ) (h : n ≤ cfg0.N) (hz : n ≠ 0) :
    PhiS V c n h = iprop(iprop(owns (c : Thread nD τ) scNum fullShare ((outsAt V c (n - 1) (by omega)).2.1) ∗ owns (c : Thread nD τ) scDeg fullShare ((outsAt V c (n - 1) (by omega)).2.2)) ∗ (∃ r, prngReg c r)) := by
  cases n with
  | zero => exact absurd rfl hz
  | succ n => rfl

/-! ## The proof data -/

/-- The region's proof data on core `c`: the arrays as the region finds them; after the body at point `t`
    each input's buffer at its block and the output's at `outsAt`; the invariant `PhiS`; the embedding
    table's two windows at the two halves of the full share, the adjacency table whole; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (outsAt V c t.val t.isLt).1 := by dsimp only [dat0]

theorem before_0 (c : Dev nD) (t : Fin cfg0.N) (d) : (dat0 V c).before 0 t d = iblk V c 0 t :=
  before_in0_of V (dat0 V c) (A_eq V c 0) (after_0 V c) t d
theorem before_1 (c : Dev nD) (t : Fin cfg0.N) (d) : (dat0 V c).before 1 t d = iblk V c 1 t :=
  before_in1_of V (dat0 V c) (A_eq V c 1) (after_1 V c) t d
theorem before_2 (c : Dev nD) (t : Fin cfg0.N) (d) : (dat0 V c).before 2 t d = iblk V c 2 t :=
  before_in2_of V (dat0 V c) (A_eq V c 2) (after_2 V c) t d

end Cert.Kernel.Hand

end
-- ==== Proof.KB.BodyOb.lean ====
/-
  The body obligation of the neighbourhood kernel's region, at every grid point.

  At a point the pipeline hands the body the invariant, the three input blocks in their current staging
  buffers (fetched there or kept from the point before) and the output block's buffer. The point's column
  block decides the case. At a first column block the running sums are taken at anything (before the very
  first point the region lends them so; later the invariant names what the point before left, which is
  forgotten) and come back at the restarted sums; at a middle and at a last column block they are taken at
  what the point before left and come back with this tile added; off the last column block the output
  buffer goes back as it came, at the last one it comes back holding the row quotients.
-/
import proofs.«178589_j75651553951784_1_alg».proof.Proof.KB.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves_in0 (c : Dev nD) (t : Fin cfg0.N) :
    (dat0 V c).leavesExact 0 t = owns (c : Thread nD τ) (ms0 t) fullShare (iblk V c 0 t) := by
  unfold Dat.leavesExact; rw [live_in0 t, after_0]
theorem leaves_in1 (c : Dev nD) (t : Fin cfg0.N) :
    (dat0 V c).leavesExact 1 t = owns (c : Thread nD τ) (ms1 t) fullShare (iblk V c 1 t) := by
  unfold Dat.leavesExact; rw [live_in1 t, after_1]
theorem leaves_in2 (c : Dev nD) (t : Fin cfg0.N) :
    (dat0 V c).leavesExact 2 t = owns (c : Thread nD τ) (ms2 t) fullShare (iblk V c 2 t) := by
  unfold Dat.leavesExact; rw [live_in2 t, after_2]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = PhiS V c (t.val + 1) t.isLt from rfl, PhiS_succ]
  rw [leaves_in0, leaves_in1, leaves_in2]
  have hN : t.val < 128 := lt_of_lt_of_eq t.isLt (show cfg0.N = 128 from N_0)
  by_cases h0 : t.val % 32 = 0
  · have h1 : ¬t.val % 32 = 31 := by omega
    rw [Dat.leavesExact_idle (dat0 V c) 3 t (idle_out t (fun h => h1 ((hcondLast t).mp h))) (noFlush_out t (fun h => h1 ((hcondLast t).mp h)))]
    rw [outsAt_first V c t h0 h1]
    unfold numFirst degFirst; (try dsimp only)
    by_cases hz : t.val = 0
    · rw [PhiS_castSucc V c t, PhiS_zero V c _ _ hz, PhiA_eq]
      iintro ⟨⟨⟨HS0, HS1⟩, Hg⟩, Ho, ⟨%d0, H0⟩, ⟨%d1, H1⟩, ⟨%d2, H2⟩, ⟨%d3, H3⟩⟩
      iapply ((runFirst c (grid0.coords t) _ _ _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstNum c _ _ _ _ _ _ _ _ _ _ _ _ _ _ _ _ _ _ )
          · unfold owns; iexists _; isplitr
            swap; · iexact HS1
            ipureintro; exact View.read_writes_of_cover _ _ _ _ _ (coverFirstDeg c _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩⟩
      iapply ((runFirst c (grid0.coords t) _ _ _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstNum c _ _ _ _ _ _ _ _ _ _ _ _ _ _ _ _ _ _ )
          · unfold owns; iexists _; isplitr
            swap; · iexact HS1
            ipureintro; exact View.read_writes_of_cover _ _ _ _ _ (coverFirstDeg c _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 32 = 31
    · rw [show (dat0 V c).leavesExact 3 t = owns (c : Thread nD τ) (ms3 t) fullShare ((dat0 V c).after 3 t) from by
        unfold Dat.leavesExact; rw [live_out t ((hcondLast t).mpr h1)], after_3]
      rw [outsAt_last V c t h0 h1]
      unfold outLast numLast degLast; (try dsimp only)
      rw [PhiS_castSucc V c t, PhiS_pos V c _ _ hz]
      iintro ⟨⟨⟨HS0, HS1⟩, Hg⟩, Ho, ⟨%d0, H0⟩, ⟨%d1, H1⟩, ⟨%d2, H2⟩, ⟨%d3, H3⟩⟩
      iapply ((runLast c (grid0.coords t) _ _ _ _ _ _ _ _ _ _ _ _ (fun h => h0 ((hcondFirst t).mp h)) ((hcondLast t).mpr h1) (iblk V c 0 t) (iblk V c 1 t) (iblk V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLastNum c _ _ _ _ _ _ _ _ _ _ _ _ _ _ _ _ _ _ _ _ )
          · unfold owns; iexists _; isplitr
            swap; · iexact HS1
            ipureintro; exact View.read_writes_of_cover _ _ _ _ _ (coverLastDeg c _ _ _ _ _ _ _ _ _ _ _ _ _ _ _ _ _ _ _ _ )
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _ _ _ _ )
    · rw [Dat.leavesExact_idle (dat0 V c) 3 t (idle_out t (fun h => h1 ((hcondLast t).mp h))) (noFlush_out t (fun h => h1 ((hcondLast t).mp h)))]
      rw [outsAt_mid V c t h0 h1]
      unfold numMid degMid; (try dsimp only)
      rw [PhiS_castSucc V c t, PhiS_pos V c _ _ hz]
      iintro ⟨⟨⟨HS0, HS1⟩, Hg⟩, Ho, ⟨%d0, H0⟩, ⟨%d1, H1⟩, ⟨%d2, H2⟩, ⟨%d3, H3⟩⟩
      iapply ((runMid c (grid0.coords t) _ _ _ _ _ _ _ _ _ _ _ _ (fun h => h0 ((hcondFirst t).mp h)) (fun h => h1 ((hcondLast t).mp h)) (iblk V c 0 t) (iblk V c 1 t) (iblk V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMidNum c _ _ _ _ _ _ _ _ _ _ _ _ _ _ _ _ _ _ _ _ )
          · unfold owns; iexists _; isplitr
            swap; · iexact HS1
            ipureintro; exact View.read_writes_of_cover _ _ _ _ _ (coverMidDeg c _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3

end Cert.Kernel.Hand

end
-- ==== Proof.KB.BodyOb2.lean ====
/-
  The region's body obligation in the library's form, and the invariant at the region's two ends: what the
  region lends (the two running-sum buffers at anything, the generator register) is the invariant before
  the first point, and after the last point the invariant gives the same back.
-/
import proofs.«178589_j75651553951784_1_alg».proof.Proof.KB.BodyOb

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (V : (c : Dev nD) → (b : Ref sig .tc) → Buf (Elt F) ((c : Thread nD τ).loc b))

set_option maxHeartbeats 1000000

/-- The library's body obligation, at every point. -/
theorem body_obligation (c : Dev nD) : BodyObligation (dat0 (F := F) V c) (defs₀ (F := F)) Variants.none () Set.univ := fun t => by
  rw [bigSep_W0, bigSep_W0]
  show bodyPre V c t ⊢ wp frame (wpE (defs₀ (F := F)) Variants.none c none) Set.univ (bodyAt0 t) (fun _ => bodyPost V c t)
  exact sound_body V c t

/-- What the region lends is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the running sums' named contents are forgotten. -/
theorem hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨⟨HS0, HS1⟩, Hg⟩
  isplitl [HS0 HS1]
  · isplitl [HS0]
    · iexists _; iexact HS0
    · iexists _; iexact HS1
  iexact Hg

end Cert.Kernel.Hand

end
-- ==== Proof.KB.Run.lean ====
/-
  The neighbourhood program from launch to return: the buffer contents at the region's entry and exit, and
  how the region takes the TensorCore's buffers apart and puts them back.

  The program enters its one kernel region first, from the launch memory. The region's four windows sit on
  three arrays — the embedding table (twice: a 2048-row block and a 256-row block), the adjacency table and
  the result vector. At entry the embedding table, held whole, is dealt to its two windows by halves of the
  share; at exit the two halves, which hold the same unchanged contents, are put together again. The region
  changes one buffer only: the result vector ends at what the pipeline's write-backs leave in it.
-/
import proofs.«178589_j75651553951784_1_alg».proof.Proof.KB.BodyOb2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The buffer contents at the region's entry and exit -/

/-- Core `c`'s buffers at launch: the region is entered from them. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the region's exit: the result vector at what the pipeline's write-backs leave, every other buffer as entered. -/
def W1 (c : Dev nD) : Valuation τ sig (Elt F) := fun b =>
  if h : Proc.devRef .tc (Pipeline.arrRef spec0 (3 : Fin 4)) = b then
    cast (congrArg (fun b' : DevRef τ sig => b'.ty.Contents (Elt F)) h) ((dat0 (V0 m ρ) c).arrAt 3 cfg0.N)
  else W0 m ρ c b
abbrev V1 : (c : Dev nD) → (b : Ref sig .tc) → Buf (Elt F) ((c : Thread nD τ).loc b) := fun c b => W1 m ρ c b

theorem W1_out (c : Dev nD) : W1 m ρ c (Proc.devRef .tc main_v0) = (dat0 (V0 m ρ) c).arrAt 3 cfg0.N := by
  unfold W1; rw [dif_pos rfl]; rfl

theorem W1_of_ne (c : Dev nD) (b : Ref sig .tc) (hb : main_v0 ≠ b) : W1 m ρ c (Proc.devRef .tc b) = W0 m ρ c (Proc.devRef .tc b) := by
  unfold W1; rw [dif_neg (StableHlo.devRef_ne_of_ne hb)]

/-- The three distinct arrays behind the four windows. -/
theorem arrRefs_eq : Finset.univ.image (Pipeline.arrRef spec0) = ({main_arg0, main_arg1, main_v0} : Finset (Ref sig .tc)) := by decide

/-- An input window's array is never written back into. -/
theorem arrAt_0 (c : Dev nD) (n : ℕ) : (dat0 (V0 m ρ) c).arrAt 0 n = V0 m ρ c main_arg0 :=
  ((dat0 (V0 m ρ) c).arrAt_in 0 rfl n).trans (A_eq (V0 m ρ) c 0)
theorem arrAt_1 (c : Dev nD) (n : ℕ) : (dat0 (V0 m ρ) c).arrAt 1 n = V0 m ρ c main_arg0 :=
  ((dat0 (V0 m ρ) c).arrAt_in 1 rfl n).trans (A_eq (V0 m ρ) c 1)
theorem arrAt_2 (c : Dev nD) (n : ℕ) : (dat0 (V0 m ρ) c).arrAt 2 n = V0 m ρ c main_arg1 :=
  ((dat0 (V0 m ρ) c).arrAt_in 2 rfl n).trans (A_eq (V0 m ρ) c 2)

/-- The region's `arrays` at contents `G`, window by window at its share. -/
theorem arrays_eq4 (c : Dev nD) (G : (w : Fin cfg0.W) → Buf (Elt F) ((cfg0.win w).arr.view.loc (c : Thread nD τ))) :
    ((dat0 (V0 m ρ) c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)) := by
  unfold Dat.arrays
  rw [bigSep_W0]
  rw [(arr_whole0 0).set_eq_univ, (arr_whole0 2).set_eq_univ, (arr_whole0 3).set_eq_univ]
  rfl

/-! ## Taking the buffers apart at entry, putting them back at exit -/

/-- The three arrays, each held whole at contents `Vx`. -/
theorem arrBufs_eq3 (c : Dev nD) (Vx : (b : Ref sig .tc) → Buf (Elt F) ((c : Thread nD τ).loc b)) :
    (Pipeline.arrBufs (Ix := Unit) (Name := ℕ) (U := UR sig nD τ) (Lvl := ℕ) spec0 c Vx : sProp 𝕄)
      = iprop((((c : Thread nD τ).loc main_arg0) ↦{fullShare} Vx main_arg0) ∗ (((c : Thread nD τ).loc main_arg1) ↦{fullShare} Vx main_arg1)
          ∗ (((c : Thread nD τ).loc main_v0) ↦{fullShare} Vx main_v0)) := by
  unfold Pipeline.arrBufs
  rw [arrRefs_eq, BI.bigSep_insert (by decide), BI.bigSep_insert (by decide), BI.bigSep_singleton]
  rfl

/-- The buffers no window sits on are the same at the exit contents. -/
theorem rest_eq (c : Dev nD) :
    (Pipeline.unscopedRest (Ix := Unit) (Name := ℕ) (U := UR sig nD τ) (Lvl := ℕ) spec0 c (V1 m ρ c) : sProp 𝕄) = Pipeline.unscopedRest spec0 c (V0 m ρ c) := by
  unfold Pipeline.unscopedRest
  refine bigSep_congr fun b hb => ?_
  rw [show V1 m ρ c b = V0 m ρ c b from W1_of_ne m ρ c b (fun e => (Finset.mem_sdiff.mp hb).2 (Finset.mem_image.mpr ⟨3, Finset.mem_univ _, e⟩))]

/-- ENTRY: the embedding table, held whole among the unscoped buffers, is dealt by halves to its two windows. -/
theorem entry_split (c : Dev nD) :
    (StableHlo.held (c : Thread nD τ) (Pipeline.ucRefs τ sig) (W0 m ρ c) : sProp 𝕄)
      ⊢ iprop((dat0 (V0 m ρ) c).arrays ((dat0 (V0 m ρ) c).arrAt · 0) ∗ Pipeline.unscopedRest spec0 c (V0 m ρ c)) := by
  rw [← Pipeline.unscopedBufs_held c (W0 m ρ c)]
  show (unscopedBufs c (V0 m ρ c) : sProp 𝕄) ⊢ _
  rw [Pipeline.unscopedBufs_split₀ cfgs (0 : Fin 1) winFacts₀0.arr_unscoped c (V0 m ρ c), arrays_eq4, arrBufs_eq3]
  rw [arrAt_0, arrAt_1, arrAt_2, show (dat0 (V0 m ρ) c).arrAt 3 0 = V0 m ρ c main_v0 from A_eq (V0 m ρ) c 3]
  iintro ⟨⟨Ha0, Ha1, Hv0⟩, Hrest⟩
  ihave H2 := (pointsTo_share (PosShare.mem_left_op_right fullShare)).1 $$ Ha0
  icases H2 with ⟨HL, HR⟩
  isplitr [Hrest]
  · isplitl [HL]; · iexact HL
    isplitl [HR]; · iexact HR
    isplitl [Ha1]; · iexact Ha1
    iexact Hv0
  iexact Hrest

/-- EXIT: the two halves, at the same unchanged contents, make the embedding table whole again. -/
theorem exit_join (c : Dev nD) :
    iprop((dat0 (V0 m ρ) c).arrays ((dat0 (V0 m ρ) c).arrAt · cfg0.N) ∗ Pipeline.unscopedRest spec0 c (V0 m ρ c))
      ⊢ (StableHlo.held (c : Thread nD τ) (Pipeline.ucRefs τ sig) (W1 m ρ c) : sProp 𝕄) := by
  rw [← Pipeline.unscopedBufs_held c (W1 m ρ c)]
  show _ ⊢ (unscopedBufs c (V1 m ρ c) : sProp 𝕄)
  rw [Pipeline.unscopedBufs_split₀ cfgs (0 : Fin 1) winFacts₀0.arr_unscoped c (V1 m ρ c), arrays_eq4, rest_eq, arrBufs_eq3]
  rw [arrAt_0, arrAt_1, arrAt_2]
  rw [show V1 m ρ c main_arg0 = V0 m ρ c main_arg0 from W1_of_ne m ρ c main_arg0 (by decide),
    show V1 m ρ c main_arg1 = V0 m ρ c main_arg1 from W1_of_ne m ρ c main_arg1 (by decide),
    show V1 m ρ c main_v0 = (dat0 (V0 m ρ) c).arrAt 3 cfg0.N from W1_out m ρ c]
  iintro ⟨⟨HL, HR, Ha1, Hv0⟩, Hrest⟩
  isplitr [Hrest]
  · isplitl [HL HR]
    · iapply (pointsTo_share (PosShare.mem_left_op_right fullShare)).2
      isplitl [HL]; · iexact HL
      iexact HR
    isplitl [Ha1]; · iexact Ha1
    iexact Hv0
  iexact Hrest

/-! ## The host operations after the region -/

abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)

/-- No host operation writes an argument, and the region writes only the result vector. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V0 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V0 m ρ) c)
    unfold Pipeline.ΦA
    iintro ⟨Hp, -, Hr⟩
    isplitl [Hr]; · iexact Hr
    iexact Hp
  hout c := by
    rw [Pipeline.ownSems0_none]
    refine (hout (V0 m ρ) c).trans ?_
    unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)) ]

theorem main_run (c : Dev nD) : main (F := F) c = Pipeline.Seg.run (segs m ρ) := (main_chain c).trans (by chain_rfl)

set_option backward.isDefEq.respectTransparency.types false in
/-- Every weakly fair execution of the program terminates, nothing faulting, and in every final state each
    unscoped buffer of the TensorCore holds what the host operations after the region leave (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the program runs to the end and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_main_arg0 m ρ c),
    (h c _ (mem_uc main_arg1 (by decide))).trans (W4_main_arg1 m ρ c)⟩) (run_all m ρ)

end Cert.Kernel.Hand

end
-- ==== Proof.KI.Shared.lean ====
/-
  What the three control cases of the neighbourhood kernel's body share.

  The grid is 4 × 32: point `t` is row block `t / 32`, column block `t % 32`. The body resets its two
  running sums (the weighted distance sum and the degree, one entry per row of the block) when the
  column block is 0, adds the current tile's row sums at every point, and at column block 31 divides the
  two and stores the quotient into the output block. So the body has three cases over the grid:
  first column block (reset, add), a middle one (add), last one (add, divide, store). The two branch
  conditions are decided over the 128 points in closed form, the output window is idle (nothing stored,
  nothing written back) except at the last column block, and the input windows are never idle.
-/
import proofs.«178589_j75651553951784_1_alg».proof.Proof.Gen.KernelIdeal.Launch
import proofs.«178589_j75651553951784_1_alg».proof.Proof.Gen.KernelIdeal.Skeleton
import proofs.«178589_j75651553951784_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The branch conditions -/

/-- "the column block is the first": the reset branch's condition, from the grid coordinates. -/
abbrev condFirst (i : grid0.Coords) : Prop :=
  (Scalar.cmpi .ne (Scalar.extui (Scalar.cmpi .eq (BitVec.ofNat 32 (i 1).val) 0#32)) 0#32) = 1#1
/-- It holds exactly at the points ≡ 0 (mod 32). -/
theorem hcondFirst : ∀ t : Fin cfg0.N, condFirst (grid0.coords t) ↔ t.val % 32 = 0 :=
  (by decide +kernel : ∀ t : Fin grid0.N, condFirst (grid0.coords t) ↔ t.val % 32 = 0)

/-- "the column block is the last": the divide-and-store branch's condition. -/
abbrev condLast (i : grid0.Coords) : Prop := k0_cond2 i = 1#1
/-- It holds exactly at the points ≡ 31 (mod 32). -/
theorem hcondLast : ∀ t : Fin cfg0.N, condLast (grid0.coords t) ↔ t.val % 32 = 31 :=
  (by decide +kernel : ∀ t : Fin grid0.N, condLast (grid0.coords t) ↔ t.val % 32 = 31)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- Off the last column block nothing is stored into the output block and it is not written back. -/
theorem idle_out : ∀ t : Fin cfg0.N, ¬condLast (grid0.coords t) → cfg0.idle 3 (grid0.coords t) = true := by decide +kernel
theorem noFlush_out : ∀ t : Fin cfg0.N, ¬condLast (grid0.coords t) → (cfg0.win 3).flush t = false := by decide +kernel
/-- At the last column block the output block is stored. -/
theorem live_out : ∀ t : Fin cfg0.N, condLast (grid0.coords t) → cfg0.idle 3 (grid0.coords t) = false := by decide +kernel

/-! ## The memrefs the body is called with -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048 .f32 := win0_3.stage (cfg0.slots t 3)
abbrev hs3 (t : Fin cfg0.N) : (ms3 t).IsWhole := hstage0_3 ((cfg0.slots t 3).cast nbuf0_3)
/-- The two running sums' buffers: the weighted distance sums and the degrees. -/
abbrev scNum : Memref sig .tc .vmem S2048x1 .f32 := Memref.whole cc0_scratch0
abbrev scDeg : Memref sig .tc .vmem S2048x1 .f32 := Memref.whole cc0_scratch1
abbrev VNum : View sig .tc .vmem S2048x1 .f32 := scNum.view
abbrev VDeg : View sig .tc .vmem S2048x1 .f32 := scDeg.view
/-- One staging buffer of the output window, through which its contents are stated. -/
abbrev VOut : View sig .tc .vmem S2048 .f32 := (Memref.whole cc0_stg3_0 : Memref sig .tc .vmem S2048 .f32).view

/-- What the region lends the body besides the windows: the two running-sum buffers at some contents and
    the generator register at some state. -/
theorem PhiA_eq (c : Dev nD) :
    (Pipeline.ΦA spec0 c : sProp 𝕄)
      = iprop(iprop((∃ d, owns (c : Thread nD τ) scNum fullShare d) ∗ (∃ d, owns (c : Thread nD τ) scDeg fullShare d)) ∗ (∃ r, prngReg c r)) := by
  unfold Pipeline.ΦA; rw [scopedRest0_eq]; simp only [scNum, scDeg, owns_whole]; try rfl

end Cert.KernelIdeal.Hand

end
-- ==== Proof.KI.RunFirst.lean ====
/-
  The body at the FIRST column block: the reset branch is taken, the divide-and-store branch is not. On
  whole memrefs — the three input blocks at their contents, the output block's buffer at any contents and
  handed back untouched, the two running sums at ANY contents (they are reset before they are read) — the
  body runs to the end, each running sum's buffer with its stores written (the reset, then the first
  tile's sums added). The pieces stored are found by the run itself.
-/
import proofs.«178589_j75651553951784_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
noncomputable def runFirst (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i)
    (x0 : Vec F S2048x512 .f32) (x1 : Vec F S256x512 .f32) (x2 : Vec F S2048x256 .i32) :
    Σ' (LS0 : List (View.Piece (Elt F) S2048x1 .f32)), { LS1 : List (View.Piece (Elt F) S2048x1 .f32) //
      ∀ (xi3 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__neighborhood_kernel i arg2 harg2 arg3 harg3 arg4 harg4 arg5 harg5 arg6 harg6 arg7 harg7) K } := by
  refine ⟨?_, ?_, fun xi3 E K => ?run⟩
  case run =>
    simp only [cc0__neighborhood_kernel_eq_skeleton]; unfold cc0__neighborhood_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.RunMid.lean ====
/-
  The body at a MIDDLE column block (neither the first nor the last): both branches fall through. On whole
  memrefs — the three input blocks at their contents, the output block's buffer at any contents and handed
  back untouched, the two running sums at what the point before left — the body runs to the end, the inputs
  as they were, each running sum's buffer with its one store written. The pieces stored are found by the
  run itself.
-/
import proofs.«178589_j75651553951784_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
noncomputable def runMid (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i)
    (x0 : Vec F S2048x512 .f32) (x1 : Vec F S256x512 .f32) (x2 : Vec F S2048x256 .i32) (xs0 xs1 : Vec F S2048x1 .f32) :
    Σ' (LS0 : List (View.Piece (Elt F) S2048x1 .f32)), { LS1 : List (View.Piece (Elt F) S2048x1 .f32) //
      ∀ (xi3 : Vec F S2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__neighborhood_kernel i arg2 harg2 arg3 harg3 arg4 harg4 arg5 harg5 arg6 harg6 arg7 harg7) K } := by
  refine ⟨?_, ?_, fun xi3 E K => ?run⟩
  case run =>
    simp only [cc0__neighborhood_kernel_eq_skeleton]; unfold cc0__neighborhood_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.RunLast.lean ====
/-
  The body at the LAST column block: the reset branch is not taken, the divide-and-store branch is. On
  whole memrefs — the three input blocks at their contents, the output block's buffer at any contents, the
  two running sums at what the point before left — the body runs to the end, each running sum's buffer
  with its store written and the output block's buffer with the quotient stored. The pieces stored are
  found by the run itself.
-/
import proofs.«178589_j75651553951784_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
noncomputable def runLast (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i)
    (x0 : Vec F S2048x512 .f32) (x1 : Vec F S256x512 .f32) (x2 : Vec F S2048x256 .i32) (xs0 xs1 : Vec F S2048x1 .f32) :
    Σ' (L3 : List (View.Piece (Elt F) S2048 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__neighborhood_kernel i arg2 harg2 arg3 harg3 arg4 harg4 arg5 harg5 arg6 harg6 arg7 harg7) K } := by
  refine ⟨?_, ?_, ?_, fun E K => ?run⟩
  case run =>
    simp only [cc0__neighborhood_kernel_eq_skeleton]; unfold cc0__neighborhood_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.Body.lean ====
/-
  The neighbourhood kernel's body over the whole grid.

  What each control case leaves in the two running-sum buffers and (at the last column block) in the
  output block is read back from the pieces its run stored. `outsAt` follows the buffers from point to
  point: at a first column block the sums restart from the reset, elsewhere they continue from what the
  point before left; the output block is stored only at a last column block. The invariant between
  points holds the two running sums at exactly those contents (at anything before the first point), and
  the generator register. The embedding table is read through two windows (a 2048-row block and a
  256-row block of the SAME array), so its two windows hold it at the two halves of the full share; the
  adjacency table and the result vector are held whole. With that, the body obligation holds at every
  point: the inputs' buffers hold their blocks, fetched there or not, and the case the point is in runs.
  Everything is stated at a parameter `V`, the TensorCore's buffer contents when the region is entered.
-/
import proofs.«178589_j75651553951784_1_alg».proof.Proof.KI.RunFirst
import proofs.«178589_j75651553951784_1_alg».proof.Proof.KI.RunMid
import proofs.«178589_j75651553951784_1_alg».proof.Proof.KI.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The output block's buffer where nothing is stored into it: a placeholder nothing consults (off the
    last column block the window is neither written back nor read at the next point). -/
def outIdle : Vec F S2048 .f32 := VOut.read (Elt F) VOut.junk

/-- First column block: each running sum's stores cover its buffer, -/
theorem coverFirstNum (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) (y : S2048x1.Idx) :
    ∃ pc ∈ (runFirst c i arg2 harg2 arg3 harg3 arg4 harg4 arg5 harg5 arg6 harg6 arg7 harg7 hc0 hc1 x0 x1 x2).1, y ∈ pc.1.set :=
  View.cover_of_tiledL (runFirst c i arg2 harg2 arg3 harg3 arg4 harg4 arg5 harg5 arg6 harg6 arg7 harg7 hc0 hc1 x0 x1 x2).1 S2048x1.size (by sl_kernel_rfl) y
theorem coverFirstDeg (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) (y : S2048x1.Idx) :
    ∃ pc ∈ (runFirst c i arg2 harg2 arg3 harg3 arg4 harg4 arg5 harg5 arg6 harg6 arg7 harg7 hc0 hc1 x0 x1 x2).2.1, y ∈ pc.1.set :=
  View.cover_of_tiledL (runFirst c i arg2 harg2 arg3 harg3 arg4 harg4 arg5 harg5 arg6 harg6 arg7 harg7 hc0 hc1 x0 x1 x2).2.1 S2048x1.size (by sl_kernel_rfl) y
/-- and what they leave there. -/
def numFirst (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) : Vec F S2048x1 .f32 :=
  VNum.read (Elt F) (VNum.writes (Elt F) VNum.junk (runFirst c i arg2 harg2 arg3 harg3 arg4 harg4 arg5 harg5 arg6 harg6 arg7 harg7 hc0 hc1 x0 x1 x2).1)
def degFirst (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) : Vec F S2048x1 .f32 :=
  VDeg.read (Elt F) (VDeg.writes (Elt F) VDeg.junk (runFirst c i arg2 harg2 arg3 harg3 arg4 harg4 arg5 harg5 arg6 harg6 arg7 harg7 hc0 hc1 x0 x1 x2).2.1)

/-- A middle column block: the same, over what the point before left. -/
theorem coverMidNum (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) (y : S2048x1.Idx) :
    ∃ pc ∈ (runMid c i arg2 harg2 arg3 harg3 arg4 harg4 arg5 harg5 arg6 harg6 arg7 harg7 hc0 hc1 x0 x1 x2 xs0 xs1).1, y ∈ pc.1.set :=
  View.cover_of_tiledL (runMid c i arg2 harg2 arg3 harg3 arg4 harg4 arg5 harg5 arg6 harg6 arg7 harg7 hc0 hc1 x0 x1 x2 xs0 xs1).1 S2048x1.size (by sl_kernel_rfl) y
theorem coverMidDeg (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) (y : S2048x1.Idx) :
    ∃ pc ∈ (runMid c i arg2 harg2 arg3 harg3 arg4 harg4 arg5 harg5 arg6 harg6 arg7 harg7 hc0 hc1 x0 x1 x2 xs0 xs1).2.1, y ∈ pc.1.set :=
  View.cover_of_tiledL (runMid c i arg2 harg2 arg3 harg3 arg4 harg4 arg5 harg5 arg6 harg6 arg7 harg7 hc0 hc1 x0 x1 x2 xs0 xs1).2.1 S2048x1.size (by sl_kernel_rfl) y
def numMid (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) : Vec F S2048x1 .f32 :=
  VNum.read (Elt F) (VNum.writes (Elt F) VNum.junk (runMid c i arg2 harg2 arg3 harg3 arg4 harg4 arg5 harg5 arg6 harg6 arg7 harg7 hc0 hc1 x0 x1 x2 xs0 xs1).1)
def degMid (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) : Vec F S2048x1 .f32 :=
  VDeg.read (Elt F) (VDeg.writes (Elt F) VDeg.junk (runMid c i arg2 harg2 arg3 harg3 arg4 harg4 arg5 harg5 arg6 harg6 arg7 harg7 hc0 hc1 x0 x1 x2 xs0 xs1).2.1)

/-- The last column block: the output block is stored too. -/
theorem coverLastOut (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) (y : S2048.Idx) :
    ∃ pc ∈ (runLast c i arg2 harg2 arg3 harg3 arg4 harg4 arg5 harg5 arg6 harg6 arg7 harg7 hc0 hc1 x0 x1 x2 xs0 xs1).1, y ∈ pc.1.set :=
  View.cover_of_tiledL (runLast c i arg2 harg2 arg3 harg3 arg4 harg4 arg5 harg5 arg6 harg6 arg7 harg7 hc0 hc1 x0 x1 x2 xs0 xs1).1 S2048.size (by sl_kernel_rfl) y
theorem coverLastNum (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) (y : S2048x1.Idx) :
    ∃ pc ∈ (runLast c i arg2 harg2 arg3 harg3 arg4 harg4 arg5 harg5 arg6 harg6 arg7 harg7 hc0 hc1 x0 x1 x2 xs0 xs1).2.1, y ∈ pc.1.set :=
  View.cover_of_tiledL (runLast c i arg2 harg2 arg3 harg3 arg4 harg4 arg5 harg5 arg6 harg6 arg7 harg7 hc0 hc1 x0 x1 x2 xs0 xs1).2.1 S2048x1.size (by sl_kernel_rfl) y
theorem coverLastDeg (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) (y : S2048x1.Idx) :
    ∃ pc ∈ (runLast c i arg2 harg2 arg3 harg3 arg4 harg4 arg5 harg5 arg6 harg6 arg7 harg7 hc0 hc1 x0 x1 x2 xs0 xs1).2.2.1, y ∈ pc.1.set :=
  View.cover_of_tiledL (runLast c i arg2 harg2 arg3 harg3 arg4 harg4 arg5 harg5 arg6 harg6 arg7 harg7 hc0 hc1 x0 x1 x2 xs0 xs1).2.2.1 S2048x1.size (by sl_kernel_rfl) y
def outLast (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) : Vec F S2048 .f32 :=
  VOut.read (Elt F) (VOut.writes (Elt F) VOut.junk (runLast c i arg2 harg2 arg3 harg3 arg4 harg4 arg5 harg5 arg6 harg6 arg7 harg7 hc0 hc1 x0 x1 x2 xs0 xs1).1)
def numLast (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) : Vec F S2048x1 .f32 :=
  VNum.read (Elt F) (VNum.writes (Elt F) VNum.junk (runLast c i arg2 harg2 arg3 harg3 arg4 harg4 arg5 harg5 arg6 harg6 arg7 harg7 hc0 hc1 x0 x1 x2 xs0 xs1).2.1)
def degLast (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) : Vec F S2048x1 .f32 :=
  VDeg.read (Elt F) (VDeg.writes (Elt F) VDeg.junk (runLast c i arg2 harg2 arg3 harg3 arg4 harg4 arg5 harg5 arg6 harg6 arg7 harg7 hc0 hc1 x0 x1 x2 xs0 xs1).2.2.1)

/-! ## The accumulation over the points -/

/-- What the output block's buffer and the two running sums hold after the body at position `n`: the case
    the closed forms select there, run at the point's memrefs and input blocks, the running sums read at
    what position `n - 1` left. -/
def outsAt (c : Dev nD) : (n : ℕ) → n < cfg0.N → Vec F S2048 .f32 × Vec F S2048x1 .f32 × Vec F S2048x1 .f32
  | 0, hn => (outIdle,
      numFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scNum (Memref.isWhole_whole _) scDeg (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩),
      degFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scNum (Memref.isWhole_whole _) scDeg (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 32 = 0 then
      (outIdle,
        numFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) ((hcondFirst ⟨n + 1, hn⟩).mpr h0) (fun h => (fun h => by (try dsimp only at h); omega) ((hcondLast ⟨n + 1, hn⟩).mp h)) (iblk V c 0 ⟨n + 1, hn⟩) (iblk V c 1 ⟨n + 1, hn⟩) (iblk V c 2 ⟨n + 1, hn⟩),
        degFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) ((hcondFirst ⟨n + 1, hn⟩).mpr h0) (fun h => (fun h => by (try dsimp only at h); omega) ((hcondLast ⟨n + 1, hn⟩).mp h)) (iblk V c 0 ⟨n + 1, hn⟩) (iblk V c 1 ⟨n + 1, hn⟩) (iblk V c 2 ⟨n + 1, hn⟩))
    else
      if h1 : (n + 1) % 32 = 31 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2,
          numLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2,
          degLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)
      else
        (outIdle,
          numMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2,
          degMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scNum (Memref.isWhole_whole _) scDeg (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2)

/-- What the point before `t` left. -/
abbrev prevAt (c : Dev nD) (t : Fin cfg0.N) := outsAt V c (t.val - 1) (Nat.lt_of_le_of_lt (Nat.sub_le _ _) t.isLt)

/-- `outsAt` at a first column block. -/
theorem outsAt_first (c : Dev nD) (t : Fin cfg0.N) (h0 : t.val % 32 = 0) (h1 : ¬t.val % 32 = 31) :
    outsAt V c t.val t.isLt = (outIdle,
      numFirst c (grid0.coords t) (ms0 t) (hs0 t) (ms1 t) (hs1 t) (ms2 t) (hs2 t) (ms3 t) (hs3 t) scNum (Memref.isWhole_whole _) scDeg (Memref.isWhole_whole _) ((hcondFirst t).mpr h0) (fun h => h1 ((hcondLast t).mp h)) (iblk V c 0 t) (iblk V c 1 t) (iblk V c 2 t),
      degFirst c (grid0.coords t) (ms0 t) (hs0 t) (ms1 t) (hs1 t) (ms2 t) (hs2 t) (ms3 t) (hs3 t) scNum (Memref.isWhole_whole _) scDeg (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans rfl

/-- `outsAt` at a middle column block, over what the point before left. -/
theorem outsAt_mid (c : Dev nD) (t : Fin cfg0.N) (h0 : ¬t.val % 32 = 0) (h1 : ¬t.val % 32 = 31) :
    outsAt V c t.val t.isLt = (outIdle,
      numMid c (grid0.coords t) (ms0 t) (hs0 t) (ms1 t) (hs1 t) (ms2 t) (hs2 t) (ms3 t) (hs3 t) scNum (Memref.isWhole_whole _) scDeg (Memref.isWhole_whole _) (fun h => h0 ((hcondFirst t).mp h)) (fun h => h1 ((hcondLast t).mp h)) (iblk V c 0 t) (iblk V c 1 t) (iblk V c 2 t) (prevAt V c t).2.1 (prevAt V c t).2.2,
      degMid c (grid0.coords t) (ms0 t) (hs0 t) (ms1 t) (hs1 t) (ms2 t) (hs2 t) (ms3 t) (hs3 t) scNum (Memref.isWhole_whole _) scDeg (Memref.isWhole_whole _) (fun h => h0 ((hcondFirst t).mp h)) (fun h => h1 ((hcondLast t).mp h)) (iblk V c 0 t) (iblk V c 1 t) (iblk V c 2 t) (prevAt V c t).2.1 (prevAt V c t).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a last column block, over what the point before left. -/
theorem outsAt_last (c : Dev nD) (t : Fin cfg0.N) (h0 : ¬t.val % 32 = 0) (h1 : t.val % 32 = 31) :
    outsAt V c t.val t.isLt = (
      outLast c (grid0.coords t) (ms0 t) (hs0 t) (ms1 t) (hs1 t) (ms2 t) (hs2 t) (ms3 t) (hs3 t) scNum (Memref.isWhole_whole _) scDeg (Memref.isWhole_whole _) (fun h => h0 ((hcondFirst t).mp h)) ((hcondLast t).mpr h1) (iblk V c 0 t) (iblk V c 1 t) (iblk V c 2 t) (prevAt V c t).2.1 (prevAt V c t).2.2,
      numLast c (grid0.coords t) (ms0 t) (hs0 t) (ms1 t) (hs1 t) (ms2 t) (hs2 t) (ms3 t) (hs3 t) scNum (Memref.isWhole_whole _) scDeg (Memref.isWhole_whole _) (fun h => h0 ((hcondFirst t).mp h)) ((hcondLast t).mpr h1) (iblk V c 0 t) (iblk V c 1 t) (iblk V c 2 t) (prevAt V c t).2.1 (prevAt V c t).2.2,
      degLast c (grid0.coords t) (ms0 t) (hs0 t) (ms1 t) (hs1 t) (ms2 t) (hs2 t) (ms3 t) (hs3 t) scNum (Memref.isWhole_whole _) scDeg (Memref.isWhole_whole _) (fun h => h0 ((hcondFirst t).mp h)) ((hcondLast t).mpr h1) (iblk V c 0 t) (iblk V c 1 t) (iblk V c 2 t) (prevAt V c t).2.1 (prevAt V c t).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the very start whatever the region lends; afterwards the two running sums at
    what the point before left, and the generator register at some state. -/
def PhiS (c : Dev nD) : (n : ℕ) → n ≤ cfg0.N → sProp 𝕄
  | 0, _ => Pipeline.ΦA spec0 c
  | n + 1, hn => iprop(iprop(owns (c : Thread nD τ) scNum fullShare ((outsAt V c n hn).2.1) ∗ owns (c : Thread nD τ) scDeg fullShare ((outsAt V c n hn).2.2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scNum fullShare ((outsAt V c n hn).2.1) ∗ owns (c : Thread nD τ) scDeg fullShare ((outsAt V c n hn).2.2)) ∗ (∃ r, prngReg c r)) := rfl

theorem PhiS_pos (c : Dev nD) (n : ℕ) (h : n ≤ cfg0.N) (hz : n ≠ 0) :
    PhiS V c n h = iprop(iprop(owns (c : Thread nD τ) scNum fullShare ((outsAt V c (n - 1) (by omega)).2.1) ∗ owns (c : Thread nD τ) scDeg fullShare ((outsAt V c (n - 1) (by omega)).2.2)) ∗ (∃ r, prngReg c r)) := by
  cases n with
  | zero => exact absurd rfl hz
  | succ n => rfl

/-! ## The proof data -/

/-- The region's proof data on core `c`: the arrays as the region finds them; after the body at point `t`
    each input's buffer at its block and the output's at `outsAt`; the invariant `PhiS`; the embedding
    table's two windows at the two halves of the full share, the adjacency table whole; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = (outsAt V c t.val t.isLt).1 := by dsimp only [dat0]

theorem before_0 (c : Dev nD) (t : Fin cfg0.N) (d) : (dat0 V c).before 0 t d = iblk V c 0 t :=
  before_in0_of V (dat0 V c) (A_eq V c 0) (after_0 V c) t d
theorem before_1 (c : Dev nD) (t : Fin cfg0.N) (d) : (dat0 V c).before 1 t d = iblk V c 1 t :=
  before_in1_of V (dat0 V c) (A_eq V c 1) (after_1 V c) t d
theorem before_2 (c : Dev nD) (t : Fin cfg0.N) (d) : (dat0 V c).before 2 t d = iblk V c 2 t :=
  before_in2_of V (dat0 V c) (A_eq V c 2) (after_2 V c) t d

end Cert.KernelIdeal.Hand

end
-- ==== Proof.KI.BodyOb.lean ====
/-
  The body obligation of the neighbourhood kernel's region, at every grid point.

  At a point the pipeline hands the body the invariant, the three input blocks in their current staging
  buffers (fetched there or kept from the point before) and the output block's buffer. The point's column
  block decides the case. At a first column block the running sums are taken at anything (before the very
  first point the region lends them so; later the invariant names what the point before left, which is
  forgotten) and come back at the restarted sums; at a middle and at a last column block they are taken at
  what the point before left and come back with this tile added; off the last column block the output
  buffer goes back as it came, at the last one it comes back holding the row quotients.
-/
import proofs.«178589_j75651553951784_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves_in0 (c : Dev nD) (t : Fin cfg0.N) :
    (dat0 V c).leavesExact 0 t = owns (c : Thread nD τ) (ms0 t) fullShare (iblk V c 0 t) := by
  unfold Dat.leavesExact; rw [live_in0 t, after_0]
theorem leaves_in1 (c : Dev nD) (t : Fin cfg0.N) :
    (dat0 V c).leavesExact 1 t = owns (c : Thread nD τ) (ms1 t) fullShare (iblk V c 1 t) := by
  unfold Dat.leavesExact; rw [live_in1 t, after_1]
theorem leaves_in2 (c : Dev nD) (t : Fin cfg0.N) :
    (dat0 V c).leavesExact 2 t = owns (c : Thread nD τ) (ms2 t) fullShare (iblk V c 2 t) := by
  unfold Dat.leavesExact; rw [live_in2 t, after_2]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat0 V c).owesAt () t.succ = (dat0 V c).owesAt () t.castSucc from rfl]
  rw [show (dat0 V c).Φ t.succ = PhiS V c (t.val + 1) t.isLt from rfl, PhiS_succ]
  rw [leaves_in0, leaves_in1, leaves_in2]
  have hN : t.val < 128 := lt_of_lt_of_eq t.isLt (show cfg0.N = 128 from N_0)
  by_cases h0 : t.val % 32 = 0
  · have h1 : ¬t.val % 32 = 31 := by omega
    rw [Dat.leavesExact_idle (dat0 V c) 3 t (idle_out t (fun h => h1 ((hcondLast t).mp h))) (noFlush_out t (fun h => h1 ((hcondLast t).mp h)))]
    rw [outsAt_first V c t h0 h1]
    unfold numFirst degFirst; (try dsimp only)
    by_cases hz : t.val = 0
    · rw [PhiS_castSucc V c t, PhiS_zero V c _ _ hz, PhiA_eq]
      iintro ⟨⟨⟨HS0, HS1⟩, Hg⟩, Ho, ⟨%d0, H0⟩, ⟨%d1, H1⟩, ⟨%d2, H2⟩, ⟨%d3, H3⟩⟩
      iapply ((runFirst c (grid0.coords t) _ _ _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstNum c _ _ _ _ _ _ _ _ _ _ _ _ _ _ _ _ _ _ )
          · unfold owns; iexists _; isplitr
            swap; · iexact HS1
            ipureintro; exact View.read_writes_of_cover _ _ _ _ _ (coverFirstDeg c _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HS1⟩, Hg⟩, Ho, ⟨%d0, H0⟩, ⟨%d1, H1⟩, ⟨%d2, H2⟩, ⟨%d3, H3⟩⟩
      iapply ((runFirst c (grid0.coords t) _ _ _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstNum c _ _ _ _ _ _ _ _ _ _ _ _ _ _ _ _ _ _ )
          · unfold owns; iexists _; isplitr
            swap; · iexact HS1
            ipureintro; exact View.read_writes_of_cover _ _ _ _ _ (coverFirstDeg c _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 32 = 31
    · rw [show (dat0 V c).leavesExact 3 t = owns (c : Thread nD τ) (ms3 t) fullShare ((dat0 V c).after 3 t) from by
        unfold Dat.leavesExact; rw [live_out t ((hcondLast t).mpr h1)], after_3]
      rw [outsAt_last V c t h0 h1]
      unfold outLast numLast degLast; (try dsimp only)
      rw [PhiS_castSucc V c t, PhiS_pos V c _ _ hz]
      iintro ⟨⟨⟨HS0, HS1⟩, Hg⟩, Ho, ⟨%d0, H0⟩, ⟨%d1, H1⟩, ⟨%d2, H2⟩, ⟨%d3, H3⟩⟩
      iapply ((runLast c (grid0.coords t) _ _ _ _ _ _ _ _ _ _ _ _ (fun h => h0 ((hcondFirst t).mp h)) ((hcondLast t).mpr h1) (iblk V c 0 t) (iblk V c 1 t) (iblk V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLastNum c _ _ _ _ _ _ _ _ _ _ _ _ _ _ _ _ _ _ _ _ )
          · unfold owns; iexists _; isplitr
            swap; · iexact HS1
            ipureintro; exact View.read_writes_of_cover _ _ _ _ _ (coverLastDeg c _ _ _ _ _ _ _ _ _ _ _ _ _ _ _ _ _ _ _ _ )
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _ _ _ _ )
    · rw [Dat.leavesExact_idle (dat0 V c) 3 t (idle_out t (fun h => h1 ((hcondLast t).mp h))) (noFlush_out t (fun h => h1 ((hcondLast t).mp h)))]
      rw [outsAt_mid V c t h0 h1]
      unfold numMid degMid; (try dsimp only)
      rw [PhiS_castSucc V c t, PhiS_pos V c _ _ hz]
      iintro ⟨⟨⟨HS0, HS1⟩, Hg⟩, Ho, ⟨%d0, H0⟩, ⟨%d1, H1⟩, ⟨%d2, H2⟩, ⟨%d3, H3⟩⟩
      iapply ((runMid c (grid0.coords t) _ _ _ _ _ _ _ _ _ _ _ _ (fun h => h0 ((hcondFirst t).mp h)) (fun h => h1 ((hcondLast t).mp h)) (iblk V c 0 t) (iblk V c 1 t) (iblk V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMidNum c _ _ _ _ _ _ _ _ _ _ _ _ _ _ _ _ _ _ _ _ )
          · unfold owns; iexists _; isplitr
            swap; · iexact HS1
            ipureintro; exact View.read_writes_of_cover _ _ _ _ _ (coverMidDeg c _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3

end Cert.KernelIdeal.Hand

end
-- ==== Proof.KI.BodyOb2.lean ====
/-
  The region's body obligation in the library's form, and the invariant at the region's two ends: what the
  region lends (the two running-sum buffers at anything, the generator register) is the invariant before
  the first point, and after the last point the invariant gives the same back.
-/
import proofs.«178589_j75651553951784_1_alg».proof.Proof.KI.BodyOb

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (V : (c : Dev nD) → (b : Ref sig .tc) → Buf (Elt F) ((c : Thread nD τ).loc b))

set_option maxHeartbeats 1000000

/-- The library's body obligation, at every point. -/
theorem body_obligation (c : Dev nD) : BodyObligation (dat0 (F := F) V c) (defs₀ (F := F)) Variants.none () Set.univ := fun t => by
  rw [bigSep_W0, bigSep_W0]
  show bodyPre V c t ⊢ wp frame (wpE (defs₀ (F := F)) Variants.none c none) Set.univ (bodyAt0 t) (fun _ => bodyPost V c t)
  exact sound_body V c t

/-- What the region lends is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the running sums' named contents are forgotten. -/
theorem hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨⟨HS0, HS1⟩, Hg⟩
  isplitl [HS0 HS1]
  · isplitl [HS0]
    · iexists _; iexact HS0
    · iexists _; iexact HS1
  iexact Hg

end Cert.KernelIdeal.Hand

end
-- ==== Proof.KI.Run.lean ====
/-
  The neighbourhood program from launch to return: the buffer contents at the region's entry and exit, and
  how the region takes the TensorCore's buffers apart and puts them back.

  The program enters its one kernel region first, from the launch memory. The region's four windows sit on
  three arrays — the embedding table (twice: a 2048-row block and a 256-row block), the adjacency table and
  the result vector. At entry the embedding table, held whole, is dealt to its two windows by halves of the
  share; at exit the two halves, which hold the same unchanged contents, are put together again. The region
  changes one buffer only: the result vector ends at what the pipeline's write-backs leave in it.
-/
import proofs.«178589_j75651553951784_1_alg».proof.Proof.KI.BodyOb2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The buffer contents at the region's entry and exit -/

/-- Core `c`'s buffers at launch: the region is entered from them. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the region's exit: the result vector at what the pipeline's write-backs leave, every other buffer as entered. -/
def W1 (c : Dev nD) : Valuation τ sig (Elt F) := fun b =>
  if h : Proc.devRef .tc (Pipeline.arrRef spec0 (3 : Fin 4)) = b then
    cast (congrArg (fun b' : DevRef τ sig => b'.ty.Contents (Elt F)) h) ((dat0 (V0 m ρ) c).arrAt 3 cfg0.N)
  else W0 m ρ c b
abbrev V1 : (c : Dev nD) → (b : Ref sig .tc) → Buf (Elt F) ((c : Thread nD τ).loc b) := fun c b => W1 m ρ c b

theorem W1_out (c : Dev nD) : W1 m ρ c (Proc.devRef .tc main_v0) = (dat0 (V0 m ρ) c).arrAt 3 cfg0.N := by
  unfold W1; rw [dif_pos rfl]; rfl

theorem W1_of_ne (c : Dev nD) (b : Ref sig .tc) (hb : main_v0 ≠ b) : W1 m ρ c (Proc.devRef .tc b) = W0 m ρ c (Proc.devRef .tc b) := by
  unfold W1; rw [dif_neg (StableHlo.devRef_ne_of_ne hb)]

/-- The three distinct arrays behind the four windows. -/
theorem arrRefs_eq : Finset.univ.image (Pipeline.arrRef spec0) = ({main_arg0, main_arg1, main_v0} : Finset (Ref sig .tc)) := by decide

/-- An input window's array is never written back into. -/
theorem arrAt_0 (c : Dev nD) (n : ℕ) : (dat0 (V0 m ρ) c).arrAt 0 n = V0 m ρ c main_arg0 :=
  ((dat0 (V0 m ρ) c).arrAt_in 0 rfl n).trans (A_eq (V0 m ρ) c 0)
theorem arrAt_1 (c : Dev nD) (n : ℕ) : (dat0 (V0 m ρ) c).arrAt 1 n = V0 m ρ c main_arg0 :=
  ((dat0 (V0 m ρ) c).arrAt_in 1 rfl n).trans (A_eq (V0 m ρ) c 1)
theorem arrAt_2 (c : Dev nD) (n : ℕ) : (dat0 (V0 m ρ) c).arrAt 2 n = V0 m ρ c main_arg1 :=
  ((dat0 (V0 m ρ) c).arrAt_in 2 rfl n).trans (A_eq (V0 m ρ) c 2)

/-- The region's `arrays` at contents `G`, window by window at its share. -/
theorem arrays_eq4 (c : Dev nD) (G : (w : Fin cfg0.W) → Buf (Elt F) ((cfg0.win w).arr.view.loc (c : Thread nD τ))) :
    ((dat0 (V0 m ρ) c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)) := by
  unfold Dat.arrays
  rw [bigSep_W0]
  rw [(arr_whole0 0).set_eq_univ, (arr_whole0 2).set_eq_univ, (arr_whole0 3).set_eq_univ]
  rfl

/-! ## Taking the buffers apart at entry, putting them back at exit -/

/-- The three arrays, each held whole at contents `Vx`. -/
theorem arrBufs_eq3 (c : Dev nD) (Vx : (b : Ref sig .tc) → Buf (Elt F) ((c : Thread nD τ).loc b)) :
    (Pipeline.arrBufs (Ix := Unit) (Name := ℕ) (U := UR sig nD τ) (Lvl := ℕ) spec0 c Vx : sProp 𝕄)
      = iprop((((c : Thread nD τ).loc main_arg0) ↦{fullShare} Vx main_arg0) ∗ (((c : Thread nD τ).loc main_arg1) ↦{fullShare} Vx main_arg1)
          ∗ (((c : Thread nD τ).loc main_v0) ↦{fullShare} Vx main_v0)) := by
  unfold Pipeline.arrBufs
  rw [arrRefs_eq, BI.bigSep_insert (by decide), BI.bigSep_insert (by decide), BI.bigSep_singleton]
  rfl

/-- The buffers no window sits on are the same at the exit contents. -/
theorem rest_eq (c : Dev nD) :
    (Pipeline.unscopedRest (Ix := Unit) (Name := ℕ) (U := UR sig nD τ) (Lvl := ℕ) spec0 c (V1 m ρ c) : sProp 𝕄) = Pipeline.unscopedRest spec0 c (V0 m ρ c) := by
  unfold Pipeline.unscopedRest
  refine bigSep_congr fun b hb => ?_
  rw [show V1 m ρ c b = V0 m ρ c b from W1_of_ne m ρ c b (fun e => (Finset.mem_sdiff.mp hb).2 (Finset.mem_image.mpr ⟨3, Finset.mem_univ _, e⟩))]

/-- ENTRY: the embedding table, held whole among the unscoped buffers, is dealt by halves to its two windows. -/
theorem entry_split (c : Dev nD) :
    (StableHlo.held (c : Thread nD τ) (Pipeline.ucRefs τ sig) (W0 m ρ c) : sProp 𝕄)
      ⊢ iprop((dat0 (V0 m ρ) c).arrays ((dat0 (V0 m ρ) c).arrAt · 0) ∗ Pipeline.unscopedRest spec0 c (V0 m ρ c)) := by
  rw [← Pipeline.unscopedBufs_held c (W0 m ρ c)]
  show (unscopedBufs c (V0 m ρ c) : sProp 𝕄) ⊢ _
  rw [Pipeline.unscopedBufs_split₀ cfgs (0 : Fin 1) winFacts₀0.arr_unscoped c (V0 m ρ c), arrays_eq4, arrBufs_eq3]
  rw [arrAt_0, arrAt_1, arrAt_2, show (dat0 (V0 m ρ) c).arrAt 3 0 = V0 m ρ c main_v0 from A_eq (V0 m ρ) c 3]
  iintro ⟨⟨Ha0, Ha1, Hv0⟩, Hrest⟩
  ihave H2 := (pointsTo_share (PosShare.mem_left_op_right fullShare)).1 $$ Ha0
  icases H2 with ⟨HL, HR⟩
  isplitr [Hrest]
  · isplitl [HL]; · iexact HL
    isplitl [HR]; · iexact HR
    isplitl [Ha1]; · iexact Ha1
    iexact Hv0
  iexact Hrest

/-- EXIT: the two halves, at the same unchanged contents, make the embedding table whole again. -/
theorem exit_join (c : Dev nD) :
    iprop((dat0 (V0 m ρ) c).arrays ((dat0 (V0 m ρ) c).arrAt · cfg0.N) ∗ Pipeline.unscopedRest spec0 c (V0 m ρ c))
      ⊢ (StableHlo.held (c : Thread nD τ) (Pipeline.ucRefs τ sig) (W1 m ρ c) : sProp 𝕄) := by
  rw [← Pipeline.unscopedBufs_held c (W1 m ρ c)]
  show _ ⊢ (unscopedBufs c (V1 m ρ c) : sProp 𝕄)
  rw [Pipeline.unscopedBufs_split₀ cfgs (0 : Fin 1) winFacts₀0.arr_unscoped c (V1 m ρ c), arrays_eq4, rest_eq, arrBufs_eq3]
  rw [arrAt_0, arrAt_1, arrAt_2]
  rw [show V1 m ρ c main_arg0 = V0 m ρ c main_arg0 from W1_of_ne m ρ c main_arg0 (by decide),
    show V1 m ρ c main_arg1 = V0 m ρ c main_arg1 from W1_of_ne m ρ c main_arg1 (by decide),
    show V1 m ρ c main_v0 = (dat0 (V0 m ρ) c).arrAt 3 cfg0.N from W1_out m ρ c]
  iintro ⟨⟨HL, HR, Ha1, Hv0⟩, Hrest⟩
  isplitr [Hrest]
  · isplitl [HL HR]
    · iapply (pointsTo_share (PosShare.mem_left_op_right fullShare)).2
      isplitl [HL]; · iexact HL
      iexact HR
    isplitl [Ha1]; · iexact Ha1
    iexact Hv0
  iexact Hrest

/-! ## The host operations after the region -/

abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)

/-- No host operation writes an argument, and the region writes only the result vector. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V0 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V0 m ρ) c)
    unfold Pipeline.ΦA
    iintro ⟨Hp, -, Hr⟩
    isplitl [Hr]; · iexact Hr
    iexact Hp
  hout c := by
    rw [Pipeline.ownSems0_none]
    refine (hout (V0 m ρ) c).trans ?_
    unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)) ]

theorem main_run (c : Dev nD) : main (F := F) c = Pipeline.Seg.run (segs m ρ) := (main_chain c).trans (by chain_rfl)

set_option backward.isDefEq.respectTransparency.types false in
/-- Every weakly fair execution of the program terminates, nothing faulting, and in every final state each
    unscoped buffer of the TensorCore holds what the host operations after the region leave (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the program runs to the end and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_main_arg0 m ρ c),
    (h c _ (mem_uc main_arg1 (by decide))).trans (W4_main_arg1 m ρ c)⟩) (run_all m ρ)

end Cert.KernelIdeal.Hand

end
-- ==== Proof.KI.Tail.lean ====
/-
  The host operations after the region, as one function: the program returns
      −(Σ of the 8192 row quotients) + 0.01 · (Σ over the rows of the distance of each row to the mean row),
  the second summand a function of the embedding table alone (the mean row is the column sums divided by
  8192; the distance is the root of the row sum of squared differences).
-/
import proofs.«178589_j75651553951784_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.KernelIdeal Cert.KernelIdeal.Gen

variable (m : (ℓ : Loc nD τ sig) → Buf (Elt F) ℓ) (ρ : Dev nD → PrngReg)

/-- The second half of the loss, a function of the embedding table alone. -/
def compTail (x : FVec F S8192x512 .f32) : FVec F S_ .f32 :=
  mulf (constant S_ .f32 0x3C23D70A#32)
    (Host.reduceAdd
      (Host.sqrt (Host.reduceAdd
        (mulf (subf x (broadcastInDim S8192x512 ![0, 1] bcast_S1x512_S8192x512_0_1 (broadcastInDim S1x512 ![1] bcast_S512_S1x512_1
            (Host.divf (Host.reduceAdd x (constant S_ .f32 0x00000000#32) reducesTo_S8192x512_S512_d0 h_S_) (broadcastInDim S512 ![] bcast_S_S512 (constant S_ .f32 0x46000000#32))))))
          (subf x (broadcastInDim S8192x512 ![0, 1] bcast_S1x512_S8192x512_0_1 (broadcastInDim S1x512 ![1] bcast_S512_S1x512_1
            (Host.divf (Host.reduceAdd x (constant S_ .f32 0x00000000#32) reducesTo_S8192x512_S512_d0 h_S_) (broadcastInDim S512 ![] bcast_S_S512 (constant S_ .f32 0x46000000#32)))))))
        (constant S_ .f32 0x00000000#32) reducesTo_S8192x512_S8192_d1 h_S_))
      (constant S_ .f32 0x00000000#32) reducesTo_S8192_S_d0 h_S_)

/-- The host operations after the region: minus the sum of the row quotients, plus the second half. -/
def lossOf (rows : FVec F S8192 .f32) (x : FVec F S8192x512 .f32) : FVec F S_ .f32 :=
  addf (Host.negf (Host.reduceAdd rows (constant S_ .f32 0x00000000#32) reducesTo_S8192_S_d0 h_S_)) (compTail x)

set_option maxHeartbeats 2000000 in
theorem W4_result (c : Dev nD) :
    W4 m ρ c (Proc.devRef .tc main_v12) = lossOf (W1 m ρ c (Proc.devRef .tc main_v0)) (W1 m ρ c (Proc.devRef .tc main_arg0)) := by
  show StableHlo.after hostOps1_2 (StableHlo.after hostOps1_1 (StableHlo.after hostOps1 (W1 m ρ c))) (Proc.devRef .tc main_v12) = _
  rw [← StableHlo.after_append, ← StableHlo.after_append]
  simp only [hostOps1, hostOps1_1, hostOps1_2, List.cons_append, List.nil_append]
  unfold lossOf compTail
  after_results_simp <;> rfl

end Cert.KernelIdeal.Hand

end
-- ==== Proof.KI.Pieces.lean ====
/-
  What each control case of the neighbourhood kernel's body leaves in the two running-sum buffers and in
  the output block, as the body's own arithmetic: every store of the body writes a whole buffer, so a
  buffer read back after the case's stores is the LAST value stored into it — the reset followed by the
  first tile's sums at a first column block; the sums the point before left plus this tile's at the others;
  and, at a last column block, the quotient of the two sums just stored.
-/
import proofs.«178589_j75651553951784_1_alg».proof.Proof.KI.Body
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The zero offsets of a rank-two rectangle, as the constant function. -/
private theorem zeros2 : (![0, 0] : Fin 2 → Nat) = fun _ => 0 := funext fun a => by fin_cases a <;> rfl
/-- The zero offset of a rank-one rectangle, as the constant function. -/
private theorem zeros1 : (![0] : Fin 1 → Nat) = fun _ => 0 := funext fun a => by fin_cases a <;> rfl

/-- First column block, distance sums: the reset, then the tile's row sums added to the reset value read back. -/
theorem numFirst_eq (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) :
    numFirst c i arg2 harg2 arg3 harg3 arg4 harg4 arg5 harg5 arg6 harg6 arg7 harg7 hc0 hc1 x0 x1 x2 = k0_pay6 x0 x1 x2 (k0_pay3 (F := F)) := by
  unfold numFirst
  rw [View.read_writes_eq_canon _ _ _ (coverFirstNum c i arg2 harg2 arg3 harg3 arg4 harg4 arg5 harg5 arg6 harg6 arg7 harg7 hc0 hc1 x0 x1 x2)]
  unfold runFirst; dsimp only
  sl_unfold_words
  rw [View.canon_cons_unit_zero (S := S2048x1) zeros2]
  simp only [View.readAt_eq_ld, harg2.read_unread, harg3.read_unread, harg4.read_unread, harg5.read_unread, harg6.read_unread, harg7.read_unread, View.readCov_unit_zero (S := S2048x1) _ zeros2, View.ld_unit_zero (S := S2048x1) zeros2, View.ld_unit_zero (S := S2048x512) zeros2, View.ld_unit_zero (S := S256x512) zeros2, View.ld_unit_zero (S := S2048x256) zeros2]
/-- First column block, degrees: the reset, then the tile's row degrees added to the reset value read back. -/
theorem degFirst_eq (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : condFirst i) (hc1 : ¬condLast i) (x0 : Vec F S2048x512 .f32) (x1 : Vec F S256x512 .f32) (x2 : Vec F S2048x256 .i32) :
    degFirst c i arg2 harg2 arg3 harg3 arg4 harg4 arg5 harg5 arg6 harg6 arg7 harg7 hc0 hc1 x0 x1 x2 = k0_pay1 (k0_pay5 x2) (k0_pay4 (F := F)) := by
  unfold degFirst
  rw [View.read_writes_eq_canon _ _ _ (coverFirstDeg c i arg2 harg2 arg3 harg3 arg4 harg4 arg5 harg5 arg6 harg6 arg7 harg7 hc0 hc1 x0 x1 x2)]
  unfold runFirst; dsimp only
  sl_unfold_words
  rw [View.canon_cons_unit_zero (S := S2048x1) zeros2]
  simp only [View.readAt_eq_ld, harg2.read_unread, harg3.read_unread, harg4.read_unread, harg5.read_unread, harg6.read_unread, harg7.read_unread, View.readCov_unit_zero (S := S2048x1) _ zeros2, View.ld_unit_zero (S := S2048x1) zeros2, View.ld_unit_zero (S := S2048x512) zeros2, View.ld_unit_zero (S := S256x512) zeros2, View.ld_unit_zero (S := S2048x256) zeros2]
/-- Middle column block, distance sums: the tile's row sums added to what the point before left. -/
theorem numMid_eq (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) :
    numMid c i arg2 harg2 arg3 harg3 arg4 harg4 arg5 harg5 arg6 harg6 arg7 harg7 hc0 hc1 x0 x1 x2 xs0 xs1 = k0_pay6 x0 x1 x2 xs0 := by
  unfold numMid
  rw [View.read_writes_eq_canon _ _ _ (coverMidNum c i arg2 harg2 arg3 harg3 arg4 harg4 arg5 harg5 arg6 harg6 arg7 harg7 hc0 hc1 x0 x1 x2 xs0 xs1)]
  unfold runMid; dsimp only
  sl_unfold_words
  rw [View.canon_unit_zero (S := S2048x1) zeros2]
  simp only [View.readAt_eq_ld, harg2.read_unread, harg3.read_unread, harg4.read_unread, harg5.read_unread, harg6.read_unread, harg7.read_unread, View.readCov_unit_zero (S := S2048x1) _ zeros2, View.ld_unit_zero (S := S2048x1) zeros2, View.ld_unit_zero (S := S2048x512) zeros2, View.ld_unit_zero (S := S256x512) zeros2, View.ld_unit_zero (S := S2048x256) zeros2]
/-- Middle column block, degrees: the tile's row degrees added to what the point before left. -/
theorem degMid_eq (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : ¬condLast i) (x0 : Vec F S2048x512 .f32) (x1 : Vec F S256x512 .f32) (x2 : Vec F S2048x256 .i32) (xs0 xs1 : Vec F S2048x1 .f32) :
    degMid c i arg2 harg2 arg3 harg3 arg4 harg4 arg5 harg5 arg6 harg6 arg7 harg7 hc0 hc1 x0 x1 x2 xs0 xs1 = k0_pay1 (k0_pay5 x2) xs1 := by
  unfold degMid
  rw [View.read_writes_eq_canon _ _ _ (coverMidDeg c i arg2 harg2 arg3 harg3 arg4 harg4 arg5 harg5 arg6 harg6 arg7 harg7 hc0 hc1 x0 x1 x2 xs0 xs1)]
  unfold runMid; dsimp only
  sl_unfold_words
  rw [View.canon_unit_zero (S := S2048x1) zeros2]
  simp only [View.readAt_eq_ld, harg2.read_unread, harg3.read_unread, harg4.read_unread, harg5.read_unread, harg6.read_unread, harg7.read_unread, View.readCov_unit_zero (S := S2048x1) _ zeros2, View.ld_unit_zero (S := S2048x1) zeros2, View.ld_unit_zero (S := S2048x512) zeros2, View.ld_unit_zero (S := S256x512) zeros2, View.ld_unit_zero (S := S2048x256) zeros2]
/-- Last column block, distance sums: as at a middle one. -/
theorem numLast_eq (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) :
    numLast c i arg2 harg2 arg3 harg3 arg4 harg4 arg5 harg5 arg6 harg6 arg7 harg7 hc0 hc1 x0 x1 x2 xs0 xs1 = k0_pay6 x0 x1 x2 xs0 := by
  unfold numLast
  rw [View.read_writes_eq_canon _ _ _ (coverLastNum c i arg2 harg2 arg3 harg3 arg4 harg4 arg5 harg5 arg6 harg6 arg7 harg7 hc0 hc1 x0 x1 x2 xs0 xs1)]
  unfold runLast; dsimp only
  sl_unfold_words
  rw [View.canon_unit_zero (S := S2048x1) zeros2]
  simp only [View.readAt_eq_ld, harg2.read_unread, harg3.read_unread, harg4.read_unread, harg5.read_unread, harg6.read_unread, harg7.read_unread, View.readCov_unit_zero (S := S2048x1) _ zeros2, View.ld_unit_zero (S := S2048x1) zeros2, View.ld_unit_zero (S := S2048x512) zeros2, View.ld_unit_zero (S := S256x512) zeros2, View.ld_unit_zero (S := S2048x256) zeros2]
/-- Last column block, degrees: as at a middle one. -/
theorem degLast_eq (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) :
    degLast c i arg2 harg2 arg3 harg3 arg4 harg4 arg5 harg5 arg6 harg6 arg7 harg7 hc0 hc1 x0 x1 x2 xs0 xs1 = k0_pay1 (k0_pay5 x2) xs1 := by
  unfold degLast
  rw [View.read_writes_eq_canon _ _ _ (coverLastDeg c i arg2 harg2 arg3 harg3 arg4 harg4 arg5 harg5 arg6 harg6 arg7 harg7 hc0 hc1 x0 x1 x2 xs0 xs1)]
  unfold runLast; dsimp only
  sl_unfold_words
  rw [View.canon_unit_zero (S := S2048x1) zeros2]
  simp only [View.readAt_eq_ld, harg2.read_unread, harg3.read_unread, harg4.read_unread, harg5.read_unread, harg6.read_unread, harg7.read_unread, View.readCov_unit_zero (S := S2048x1) _ zeros2, View.ld_unit_zero (S := S2048x1) zeros2, View.ld_unit_zero (S := S2048x512) zeros2, View.ld_unit_zero (S := S256x512) zeros2, View.ld_unit_zero (S := S2048x256) zeros2]
/-- Last column block, output: the quotient of the two sums just stored. -/
theorem outLast_eq (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x256 .i32) (harg4 : arg4.IsWhole) (arg5 : Memref sig .tc .vmem S2048 .f32) (harg5 : arg5.IsWhole) (arg6 : Memref sig .tc .vmem S2048x1 .f32) (harg6 : arg6.IsWhole) (arg7 : Memref sig .tc .vmem S2048x1 .f32) (harg7 : arg7.IsWhole) (hc0 : ¬condFirst i) (hc1 : condLast i) (x0 : Vec F S2048x512 .f32) (x1 : Vec F S256x512 .f32) (x2 : Vec F S2048x256 .i32) (xs0 xs1 : Vec F S2048x1 .f32) :
    outLast c i arg2 harg2 arg3 harg3 arg4 harg4 arg5 harg5 arg6 harg6 arg7 harg7 hc0 hc1 x0 x1 x2 xs0 xs1 = k0_pay2 (k0_pay6 x0 x1 x2 xs0) (k0_pay1 (k0_pay5 x2) xs1) := by
  unfold outLast
  rw [View.read_writes_eq_canon _ _ _ (coverLastOut c i arg2 harg2 arg3 harg3 arg4 harg4 arg5 harg5 arg6 harg6 arg7 harg7 hc0 hc1 x0 x1 x2 xs0 xs1)]
  unfold runLast; dsimp only
  sl_unfold_words
  rw [View.canon_unit_zero (S := S2048) zeros1]
  simp only [View.readAt_eq_ld, harg2.read_unread, harg3.read_unread, harg4.read_unread, harg5.read_unread, harg6.read_unread, harg7.read_unread, View.readCov_unit_zero (S := S2048x1) _ zeros2, View.ld_unit_zero (S := S2048x1) zeros2, View.ld_unit_zero (S := S2048x512) zeros2, View.ld_unit_zero (S := S256x512) zeros2, View.ld_unit_zero (S := S2048x256) zeros2]

end Cert.KernelIdeal.Hand

end
-- ==== Proof.Spec.lean ====
/-
  The pairwise-distance neighbourhood term, written once over the extended reals.

  For an embedding table `x` (8192 rows of 512 entries) and an integer adjacency table `a`
  (8192 × 8192), row `i` and row `j` are at distance
      dist x i j = sqrt (max (max 0 (|x_i|² + |x_j|² − 2 ⟨x_i, x_j⟩)) ε),
  where |x_i|² and ⟨x_i, x_j⟩ are plain sums over the 512 entries and ε is the single-precision word
  nearest 1e-12. Row `i`'s weighted sum of distances is `num x a i = Σ_j dist x i j · a_ij`, its degree
  `deg a i = Σ_j a_ij`. Both programs of this certificate end in `−(Σ …) + tail`: one sums the 8192 row
  quotients `num / deg`, the other all 8192² entry quotients `dist · a / deg`. The two are the same number
  when every entry of `x` is a real number and no degree is zero: then every term is a real number and
  division by a nonzero real distributes over a finite sum (`rows_sum_eq`, in the module of the algebra).
-/
import Idealize.ShloMosaic.PureOps.Ideal
import Idealize.ShloMosaic.Lib.ValueIdx

noncomputable section

namespace Cert.Spec

open Idealize.ShloMosaic

/-- The embedding table's shape and the adjacency table's. -/
abbrev SE : Shape := ⟨2, ![8192, 512]⟩
abbrev SA : Shape := ⟨2, ![8192, 8192]⟩

/-- Entry `(i, k)` of the embedding table. -/
def emb (x : FVec Ideal SE .f32) (i : Fin 8192) (k : Fin 512) : EReal := x (ValueIdx.ix2 i k)

/-- Entry `(i, j)` of the adjacency table, as the real number the signed word denotes. -/
def adjf (a : IVec SA 32) (i j : Fin 8192) : EReal := (((a (ValueIdx.ix2 i j)).toInt : ℝ) : EReal)

/-- The two float literals of the distance: 2 and the word nearest 1e-12. -/
def two : EReal := Ideal.ofBits .f32 0x40000000#32
def eps : EReal := Ideal.ofBits .f32 0x2B8CBCCC#32

/-- |x_i|². -/
def sq (x : FVec Ideal SE .f32) (i : Fin 8192) : EReal := ∑ k : Fin 512, emb x i k * emb x i k

/-- ⟨x_i, x_j⟩. -/
def gram (x : FVec Ideal SE .f32) (i j : Fin 8192) : EReal := ∑ k : Fin 512, emb x i k * emb x j k

/-- The distance between rows `i` and `j`, clipped at zero and floored at ε before the root. -/
def dist (x : FVec Ideal SE .f32) (i j : Fin 8192) : EReal :=
  Ideal.sqrt (max (max 0 (sq x i + sq x j - two * gram x i j)) eps)

/-- Row `i`'s adjacency-weighted sum of distances, and its degree. -/
def num (x : FVec Ideal SE .f32) (a : IVec SA 32) (i : Fin 8192) : EReal := ∑ j : Fin 8192, dist x i j * adjf a i j
def deg (a : IVec SA 32) (i : Fin 8192) : EReal := ∑ j : Fin 8192, adjf a i j

/-- The sum of the row quotients (what the tiled program accumulates and then divides), -/
def rowsSum (x : FVec Ideal SE .f32) (a : IVec SA 32) : EReal := ∑ i : Fin 8192, Ideal.div (num x a i) (deg a i)

/-- and the sum of all entry quotients (what the plain program divides and then sums). -/
def allSum (x : FVec Ideal SE .f32) (a : IVec SA 32) : EReal :=
  ∑ i : Fin 8192, ∑ j : Fin 8192, Ideal.div (dist x i j * adjf a i j) (deg a i)

/-- Every entry of the embedding table is a real number. -/
def RealEntries (x : FVec Ideal SE .f32) : Prop := ∀ (i : Fin 8192) (k : Fin 512), ∃ r : ℝ, emb x i k = (r : EReal)

/-- No row's degree is zero. -/
def DegNonzero (a : IVec SA 32) : Prop := ∀ i : Fin 8192, deg a i ≠ 0

end Cert.Spec

end
-- ==== Proof.KI.Payloads.lean ====
/-
  The neighbourhood kernel's arithmetic read at an index, over the extended reals.

  For one tile — a block `b0` of 2048 embedding rows, a block `b1` of 256 embedding rows, the 2048 × 256
  block `b2` of the adjacency table — entry `(r, cc)` of the tile's distance matrix is
      sqrt (max (max 0 (|b0_r|² + |b1_cc|² − 2 ⟨b0_r, b1_cc⟩)) ε)
  (the matrix product of `b0` with the transpose of `b1` is the plain sum of products; a change of float
  format is the identity here), and the body adds to row `r` of the first running sum the tile's row sum of
  distance × adjacency, to row `r` of the second the row sum of the adjacency entries; the quotient stage
  divides the two, row by row; the reset stores zeros.
-/
import proofs.«178589_j75651553951784_1_alg».proof.Proof.Spec
import proofs.«178589_j75651553951784_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Idealize.ShloMosaic Cert.KernelIdeal Cert.KernelIdeal.Gen

/-- Entry `(r, cc)` of one tile's distance matrix. -/
def tileDist (b0 : Vec Ideal S2048x512 .f32) (b1 : Vec Ideal S256x512 .f32) (r : Fin 2048) (cc : Fin 256) : EReal :=
  Ideal.sqrt (max (max 0 ((∑ k : Fin 512, b0 (ValueIdx.ix2 r k) * b0 (ValueIdx.ix2 r k)) + (∑ k : Fin 512, b1 (ValueIdx.ix2 cc k) * b1 (ValueIdx.ix2 cc k))
    - Cert.Spec.two * ∑ k : Fin 512, b0 (ValueIdx.ix2 r k) * b1 (ValueIdx.ix2 cc k))) Cert.Spec.eps)

/-- Entry `(r, cc)` of the tile's adjacency block, as a real number. -/
def tileAdj (b2 : Vec Ideal S2048x256 .i32) (r : Fin 2048) (cc : Fin 256) : EReal :=
  (((b2 (ValueIdx.ix2 r cc)).toInt : ℝ) : EReal)

/-! ## Layout operations read at coordinates -/

section Layout
variable {α : Type}

/-- A vector of length `a` re-laid as an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column re-laid as a vector of length `a` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ValueIdx.ix1 i) = x (ValueIdx.ix2 i (0 : Fin 1)) :=
  shapeCast_apply x h _ _ (by
    rw [Shape.rowMajor_val_two, Shape.rowMajor_val_one]
    show i.val * 1 + 0 = i.val
    rw [Nat.mul_one, Nat.add_zero])

/-- An `a × 1` column broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

end Layout

/-- The sum along the second axis of an `a × b` table, read at row `r`: the plain sum of the row's entries. -/
theorem rowSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ValueIdx.ix1 r) = ∑ k : Fin b, v (ValueIdx.ix2 r k) := by
  refine (Ideal.multiReduction_add_single v _ h hφ hacc (ValueIdx.ix1 r)).trans ?_
  refine Finset.sum_congr rfl fun k _ => congrArg v (funext fun c => Fin.ext ?_)
  match c with
  | ⟨0, _⟩ => rfl
  | ⟨1, _⟩ => rfl

/-! ## The two resets, the quotient stage and the degree accumulation -/

theorem pay3_apply (r : Fin 2048) : k0_pay3 (F := Ideal) (ValueIdx.ix2 r 0) = 0 := by
  unfold k0_pay3
  refine (congrFun (shapeCast_self _ shapeCasts_S2048x1_S2048x1) (ValueIdx.ix2 r 0)).trans ?_
  exact Ideal.ofBits_zero_f32

theorem pay4_apply (r : Fin 2048) : k0_pay4 (F := Ideal) (ValueIdx.ix2 r 0) = 0 := by
  unfold k0_pay4
  refine (congrFun (shapeCast_self _ shapeCasts_S2048x1_S2048x1) (ValueIdx.ix2 r 0)).trans ?_
  exact Ideal.ofBits_zero_f32

theorem pay2_apply (s0 s1 : Vec Ideal S2048x1 .f32) (r : Fin 2048) :
    k0_pay2 (F := Ideal) s0 s1 (ValueIdx.ix1 r) = Ideal.div (s0 (ValueIdx.ix2 r 0)) (s1 (ValueIdx.ix2 r 0)) := by
  unfold k0_pay2
  exact shapeCast_a1_a_apply _ shapeCasts_S2048x1_S2048 r

/-- The adjacency block converted to floats, read at `(r, cc)`. -/
theorem pay5_apply (b2 : Vec Ideal S2048x256 .i32) (r : Fin 2048) (cc : Fin 256) :
    k0_pay5 (F := Ideal) b2 (ValueIdx.ix2 r cc) = tileAdj b2 r cc := by
  unfold k0_pay5 tileAdj
  rfl

theorem pay1_apply (b2 : Vec Ideal S2048x256 .i32) (s : Vec Ideal S2048x1 .f32) (r : Fin 2048) :
    k0_pay1 (F := Ideal) (k0_pay5 (F := Ideal) b2) s (ValueIdx.ix2 r 0) = s (ValueIdx.ix2 r 0) + ∑ cc : Fin 256, tileAdj b2 r cc := by
  unfold k0_pay1
  refine (congrFun (shapeCast_self _ shapeCasts_S2048x1_S2048x1) (ValueIdx.ix2 r 0)).trans ?_
  refine congrArg (s (ValueIdx.ix2 r 0) + ·) ?_
  refine (shapeCast_a_a1_apply _ shapeCasts_S2048_S2048x1 r 0).trans ?_
  refine (rowSum_apply _ reduces_S2048x256_S2048 _ _ r).trans ?_
  exact Finset.sum_congr rfl fun cc _ => pay5_apply b2 r cc

/-! ## The matrix product of `b0` with the transpose of `b1`

The product contracts the second axis of its left operand with the first of its right; its operand
indices at output `(r, cc)` and contraction coordinate `k` are `(r, k)` and `(k, cc)`. -/

theorem lhs_dot_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_dot_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_dot_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_dot_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- Entry `(r, cc)` of the product of an `2048 × 512` table with a `512 × 256` one into zeros: the sum of products. -/
theorem dot_apply {φ₁ φ₂ : FTy} (L : FVec Ideal S2048x512 φ₁) (R : FVec Ideal S512x256 φ₂) (r : Fin 2048) (cc : Fin 256) :
    matmul dot_S2048x512_S512x256_S2048x256_1_0_0_1_n_n none L R (constant (F := Ideal) S2048x256 .f32 0x00000000#32) (ValueIdx.ix2 r cc)
      = ∑ k : Fin 512, L (ValueIdx.ix2 r k) * R (ValueIdx.ix2 k cc) := by
  refine (Ideal.matmul_constant_zero_apply dot_S2048x512_S512x256_S2048x256_1_0_0_1_n_n none L R (ValueIdx.ix2 r cc)).trans ?_
  rw [← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ValueIdx.ix2 r cc) ((ValueIdx.contrEquiv1 dot_S2048x512_S512x256_S2048x256_1_0_0_1_n_n 512 rfl rfl).symm k) = ValueIdx.ix2 r k := funext fun a => Fin.ext (by
    match a with
    | ⟨0, _⟩ => exact lhs_dot_0 _ _
    | ⟨1, _⟩ => exact (lhs_dot_1 _ _).trans hk)
  have er : dot_S2048x512_S512x256_S2048x256_1_0_0_1_n_n.rhsIdx (ValueIdx.ix2 r cc) ((ValueIdx.contrEquiv1 dot_S2048x512_S512x256_S2048x256_1_0_0_1_n_n 512 rfl rfl).symm k) = ValueIdx.ix2 k cc := funext fun a => Fin.ext (by
    match a with
    | ⟨0, _⟩ => exact (rhs_dot_0 _ _).trans hk
    | ⟨1, _⟩ => exact rhs_dot_1 _ _)
  rw [el, er]

/-! ## The distance accumulation -/

theorem pay6_apply (b0 : Vec Ideal S2048x512 .f32) (b1 : Vec Ideal S256x512 .f32) (b2 : Vec Ideal S2048x256 .i32) (s : Vec Ideal S2048x1 .f32) (r : Fin 2048) :
    k0_pay6 (F := Ideal) b0 b1 b2 s (ValueIdx.ix2 r 0) = s (ValueIdx.ix2 r 0) + ∑ cc : Fin 256, tileDist b0 b1 r cc * tileAdj b2 r cc := by
  unfold k0_pay6
  refine (congrFun (shapeCast_self _ shapeCasts_S2048x1_S2048x1) (ValueIdx.ix2 r 0)).trans ?_
  refine congrArg (s (ValueIdx.ix2 r 0) + ·) ?_
  refine (shapeCast_a_a1_apply _ shapeCasts_S2048_S2048x1 r 0).trans ?_
  refine (rowSum_apply _ reduces_S2048x256_S2048 _ _ r).trans ?_
  refine Finset.sum_congr rfl fun cc _ => ?_
  refine congrArg₂ (· * ·) ?_ (pay5_apply b2 r cc)
  unfold tileDist
  refine congrArg Ideal.sqrt ?_
  refine congrArg₂ max (congrArg₂ max ?_ ?_) ?_
  · exact Ideal.ofBits_zero_f32
  · refine congrArg₂ (· - ·) (congrArg₂ (· + ·) ?_ ?_) (congrArg₂ (· * ·) rfl ?_)
    · refine (broadcastTo_a1_ab_apply _ broadcasts_S2048x1_S2048x256 r cc).trans ?_
      refine (shapeCast_a_a1_apply _ shapeCasts_S2048_S2048x1 r 0).trans ?_
      exact rowSum_apply _ reduces_S2048x512_S2048 _ _ r
    · refine (ValueIdx.broadcastTo_1b_ab_apply _ broadcasts_S1x256_S2048x256 r cc).trans ?_
      refine (ValueIdx.shapeCast_a_1a_apply _ shapeCasts_S256_S1x256 0 cc).trans ?_
      exact rowSum_apply _ reduces_S256x512_S256 _ _ cc
    · refine (dot_apply _ _ r cc).trans ?_
      refine Finset.sum_congr rfl fun k _ => congrArg₂ (· * ·) rfl ?_
      exact ValueIdx.transpose_ix2_apply _ transposes_S256x512_p1_0_S512x256 k cc
  · rfl

end Cert.KernelIdeal.Payloads

end
-- ==== Proof.KI.KernelValue.lean ====
/-
  What the tiled neighbourhood kernel leaves in its result vector, over the extended reals.

  The grid is 4 × 32: point `t` is row block `t / 32` and column block `t % 32`. At point `t` the body reads
  rows 2048·(t/32) … of the embedding table, rows 256·(t%32) … of the same table, and the 2048 × 256 block
  of the adjacency table at (t/32, t%32); so one tile's distance and adjacency entries at (r, cc) are the
  tables' at row 2048·(t/32) + r and column 256·(t%32) + cc. The two running sums restart at column block 0
  and add the tile's row sums at every point, so after point `t` they hold, at row `r`, the sums over the
  first 256·(t%32 + 1) columns; after column block 31 these are the full row sums over the 8192 columns
  (32 runs of 256 make 8192), and the quotient of the two is stored into the output block, which is written
  back to rows 2048·(t/32) … of the result. Every row of the result lies in exactly such a block, so row `i`
  of the result ends at (Σ_j dist_ij · a_ij) / (Σ_j a_ij).
-/
import proofs.«178589_j75651553951784_1_alg».proof.Proof.KI.Pieces
import proofs.«178589_j75651553951784_1_alg».proof.Proof.KI.Payloads
import proofs.«178589_j75651553951784_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Value2

open Idealize.ShloMosaic Idealize.ShloMosaic.TcCoe Idealize.SL.Sem
open Idealize.ShloMosaic.Pipeline (Dat)
open Cert.KernelIdeal Cert.KernelIdeal.Gen Cert.KernelIdeal.Hand Cert.KernelIdeal.Payloads

variable (V : (c : Dev nD) → (b : Ref sig .tc) → Buf (Elt Ideal) ((c : Thread nD τ).loc b))

/-- The index maps over the grid: point `t` is row block `t / 32`, column block `t % 32`. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = t.val % 32
    ∧ win0_3.index t (0 : Fin 1) = t.val / 32 :=
  (by decide +kernel : ∀ t : Fin grid0.N, _)

/-- The three input blocks at point `t`, at their literal types. -/
abbrev b0 (c : Dev nD) (t : Fin cfg0.N) : Vec Ideal S2048x512 .f32 := iblk V c 0 t
abbrev b1 (c : Dev nD) (t : Fin cfg0.N) : Vec Ideal S256x512 .f32 := iblk V c 1 t
abbrev b2 (c : Dev nD) (t : Fin cfg0.N) : Vec Ideal S2048x256 .i32 := iblk V c 2 t

theorem tlt (t : Fin cfg0.N) : t.val < 128 := t.isLt

/-- Row `r` of row block `t / 32`, and column `cc` of column block `t % 32`, in the whole tables. -/
abbrev rowOf (n : ℕ) (hn : n < 128) (r : Fin 2048) : Fin 8192 := ⟨2048 * (n / 32) + r.val, by omega⟩
abbrev colOf (n : ℕ) (hn : n < 128) (cc : Fin 256) : Fin 8192 := ⟨256 * (n % 32) + cc.val, by omega⟩

theorem b0_apply (c : Dev nD) (t : Fin cfg0.N) (r : Fin 2048) (k : Fin 512) :
    b0 V c t (ValueIdx.ix2 r k) = V c main_arg0 (ValueIdx.ix2 (rowOf t.val (tlt t) r) k) := by
  show V c main_arg0 (((cfg0.win 0).blk t).view.emb (ValueIdx.ix2 r k)) = V c main_arg0 _
  congr 1
  obtain ⟨e0, e1, e2, e3, e4, e5, e6⟩ := idx_facts t
  funext a; apply Fin.ext
  match a with
  | ⟨0, _⟩ => show win0_0.index t (0 : Fin 2) * 2048 + 1 * r.val = 2048 * (t.val / 32) + r.val; omega
  | ⟨1, _⟩ => show win0_0.index t (1 : Fin 2) * 512 + 1 * k.val = k.val; omega

theorem b1_apply (c : Dev nD) (t : Fin cfg0.N) (cc : Fin 256) (k : Fin 512) :
    b1 V c t (ValueIdx.ix2 cc k) = V c main_arg0 (ValueIdx.ix2 (colOf t.val (tlt t) cc) k) := by
  show V c main_arg0 (((cfg0.win 1).blk t).view.emb (ValueIdx.ix2 cc k)) = V c main_arg0 _
  congr 1
  obtain ⟨e0, e1, e2, e3, e4, e5, e6⟩ := idx_facts t
  funext a; apply Fin.ext
  match a with
  | ⟨0, _⟩ => show win0_1.index t (0 : Fin 2) * 256 + 1 * cc.val = 256 * (t.val % 32) + cc.val; omega
  | ⟨1, _⟩ => show win0_1.index t (1 : Fin 2) * 512 + 1 * k.val = k.val; omega

theorem b2_apply (c : Dev nD) (t : Fin cfg0.N) (r : Fin 2048) (cc : Fin 256) :
    b2 V c t (ValueIdx.ix2 r cc) = V c main_arg1 (ValueIdx.ix2 (rowOf t.val (tlt t) r) (colOf t.val (tlt t) cc)) := by
  show V c main_arg1 (((cfg0.win 2).blk t).view.emb (ValueIdx.ix2 r cc)) = V c main_arg1 _
  congr 1
  obtain ⟨e0, e1, e2, e3, e4, e5, e6⟩ := idx_facts t
  funext a; apply Fin.ext
  match a with
  | ⟨0, _⟩ => show win0_2.index t (0 : Fin 2) * 2048 + 1 * r.val = 2048 * (t.val / 32) + r.val; omega
  | ⟨1, _⟩ => show win0_2.index t (1 : Fin 2) * 256 + 1 * cc.val = 256 * (t.val % 32) + cc.val; omega

/-- One tile's distance entry is the tables' distance at the tile's row and column. -/
theorem tileDist_eq (c : Dev nD) (t : Fin cfg0.N) (r : Fin 2048) (cc : Fin 256) :
    tileDist (b0 V c t) (b1 V c t) r cc
      = Cert.Spec.dist (V c main_arg0) (rowOf t.val (tlt t) r) (colOf t.val (tlt t) cc) := by
  unfold tileDist Cert.Spec.dist Cert.Spec.sq Cert.Spec.gram Cert.Spec.emb
  simp only [b0_apply, b1_apply]

/-- One tile's adjacency entry is the adjacency table's at the tile's row and column. -/
theorem tileAdj_eq (c : Dev nD) (t : Fin cfg0.N) (r : Fin 2048) (cc : Fin 256) :
    tileAdj (b2 V c t) r cc
      = Cert.Spec.adjf (V c main_arg1) (rowOf t.val (tlt t) r) (colOf t.val (tlt t) cc) := by
  unfold tileAdj Cert.Spec.adjf
  rw [b2_apply]

/-- A sum over 256·m naturals, split into m runs of 256. -/
theorem sum_blocks (g : ℕ → EReal) : ∀ m : ℕ,
    ∑ J ∈ Finset.range m, ∑ cc : Fin 256, g (256 * J + cc.val) = ∑ j ∈ Finset.range (256 * m), g j
  | 0 => by simp
  | m + 1 => by
    rw [Finset.sum_range_succ, sum_blocks g m, Nat.mul_succ, Finset.sum_range_add]
    rw [Finset.sum_range (fun x => g (256 * m + x))]

/-- The addends of a row's two sums at a natural column (zero past the table). -/
def fNum (x0 : FVec Ideal Cert.Spec.SE .f32) (x1 : IVec Cert.Spec.SA 32) (i : Fin 8192) (j : ℕ) : EReal :=
  if h : j < 8192 then Cert.Spec.dist x0 i ⟨j, h⟩ * Cert.Spec.adjf x1 i ⟨j, h⟩ else 0
def fDeg (x1 : IVec Cert.Spec.SA 32) (i : Fin 8192) (j : ℕ) : EReal :=
  if h : j < 8192 then Cert.Spec.adjf x1 i ⟨j, h⟩ else 0

/-- All 32 runs of 256 columns make the whole row sum. -/
theorem num_eq (x0 : FVec Ideal Cert.Spec.SE .f32) (x1 : IVec Cert.Spec.SA 32) (i : Fin 8192) :
    ∑ J ∈ Finset.range 32, ∑ cc : Fin 256, fNum x0 x1 i (256 * J + cc.val) = Cert.Spec.num x0 x1 i := by
  rw [sum_blocks (fNum x0 x1 i) 32, Finset.sum_range]
  unfold Cert.Spec.num
  exact Finset.sum_congr rfl fun j _ => by unfold fNum; rw [dif_pos j.isLt]
theorem deg_eq (x1 : IVec Cert.Spec.SA 32) (i : Fin 8192) :
    ∑ J ∈ Finset.range 32, ∑ cc : Fin 256, fDeg x1 i (256 * J + cc.val) = Cert.Spec.deg x1 i := by
  rw [sum_blocks (fDeg x1 i) 32, Finset.sum_range]
  unfold Cert.Spec.deg
  exact Finset.sum_congr rfl fun j _ => by unfold fDeg; rw [dif_pos j.isLt]

/-- One tile's row sums, as runs of the row's addends. -/
theorem tile_num (c : Dev nD) (t : Fin cfg0.N) (r : Fin 2048) :
    ∑ cc : Fin 256, tileDist (b0 V c t) (b1 V c t) r cc * tileAdj (b2 V c t) r cc
      = ∑ cc : Fin 256, fNum (V c main_arg0) (V c main_arg1) (rowOf t.val (tlt t) r) (256 * (t.val % 32) + cc.val) :=
  Finset.sum_congr rfl fun cc _ => by
    rw [tileDist_eq, tileAdj_eq]; unfold fNum
    rw [dif_pos (by have := tlt t; omega)]
theorem tile_deg (c : Dev nD) (t : Fin cfg0.N) (r : Fin 2048) :
    ∑ cc : Fin 256, tileAdj (b2 V c t) r cc
      = ∑ cc : Fin 256, fDeg (V c main_arg1) (rowOf t.val (tlt t) r) (256 * (t.val % 32) + cc.val) :=
  Finset.sum_congr rfl fun cc _ => by
    rw [tileAdj_eq]; unfold fDeg
    rw [dif_pos (by have := tlt t; omega)]

/-- At a first column block the two sums are the tile's. -/
theorem first_step (c : Dev nD) (t : Fin cfg0.N) (h0 : t.val % 32 = 0) (r : Fin 2048) :
    (outsAt V c t.val t.isLt).2.1 (ValueIdx.ix2 r 0) = ∑ cc : Fin 256, tileDist (b0 V c t) (b1 V c t) r cc * tileAdj (b2 V c t) r cc
    ∧ (outsAt V c t.val t.isLt).2.2 (ValueIdx.ix2 r 0) = ∑ cc : Fin 256, tileAdj (b2 V c t) r cc := by
  have h1 : ¬t.val % 32 = 31 := by omega
  rw [outsAt_first V c t h0 h1]
  dsimp only
  constructor
  · refine (congrFun (numFirst_eq _ _ _ _ _ _ _ _ _ _ _ _ _ _ _ _ _ _ _) (ValueIdx.ix2 r 0)).trans ?_
    rw [pay6_apply, pay3_apply, zero_add]
  · refine (congrFun (degFirst_eq _ _ _ _ _ _ _ _ _ _ _ _ _ _ _ _ _ _ _) (ValueIdx.ix2 r 0)).trans ?_
    rw [pay1_apply, pay4_apply, zero_add]

/-- Past a first column block each sum is what the point before left plus the tile's. -/
theorem next_step (c : Dev nD) (t : Fin cfg0.N) (h0 : ¬t.val % 32 = 0) (r : Fin 2048) :
    (outsAt V c t.val t.isLt).2.1 (ValueIdx.ix2 r 0)
        = (prevAt V c t).2.1 (ValueIdx.ix2 r 0) + ∑ cc : Fin 256, tileDist (b0 V c t) (b1 V c t) r cc * tileAdj (b2 V c t) r cc
    ∧ (outsAt V c t.val t.isLt).2.2 (ValueIdx.ix2 r 0)
        = (prevAt V c t).2.2 (ValueIdx.ix2 r 0) + ∑ cc : Fin 256, tileAdj (b2 V c t) r cc := by
  by_cases h1 : t.val % 32 = 31
  · rw [outsAt_last V c t h0 h1]
    dsimp only
    constructor
    · refine (congrFun (numLast_eq _ _ _ _ _ _ _ _ _ _ _ _ _ _ _ _ _ _ _ _ _) (ValueIdx.ix2 r 0)).trans ?_
      rw [pay6_apply]
    · refine (congrFun (degLast_eq _ _ _ _ _ _ _ _ _ _ _ _ _ _ _ _ _ _ _ _ _) (ValueIdx.ix2 r 0)).trans ?_
      rw [pay1_apply]
  · rw [outsAt_mid V c t h0 h1]
    dsimp only
    constructor
    · refine (congrFun (numMid_eq _ _ _ _ _ _ _ _ _ _ _ _ _ _ _ _ _ _ _ _ _) (ValueIdx.ix2 r 0)).trans ?_
      rw [pay6_apply]
    · refine (congrFun (degMid_eq _ _ _ _ _ _ _ _ _ _ _ _ _ _ _ _ _ _ _ _ _) (ValueIdx.ix2 r 0)).trans ?_
      rw [pay1_apply]

/-- At a last column block the output block holds the quotient of the two sums just formed. -/
theorem last_out (c : Dev nD) (t : Fin cfg0.N) (h1 : t.val % 32 = 31) (r : Fin 2048) :
    (outsAt V c t.val t.isLt).1 (ValueIdx.ix1 r)
      = Ideal.div ((outsAt V c t.val t.isLt).2.1 (ValueIdx.ix2 r 0)) ((outsAt V c t.val t.isLt).2.2 (ValueIdx.ix2 r 0)) := by
  have h0 : ¬t.val % 32 = 0 := by omega
  rw [outsAt_last V c t h0 h1]
  dsimp only
  rw [outLast_eq, numLast_eq, degLast_eq, pay2_apply]

/-- After point `n` the two running sums hold, at row `r`, the runs of the row's addends over the column
    blocks `0 … n % 32`. -/
theorem inv_first (c : Dev nD) (n : ℕ) (hn : n < cfg0.N) (h0 : n % 32 = 0) (r : Fin 2048) :
    (outsAt V c n hn).2.1 (ValueIdx.ix2 r 0)
        = ∑ J ∈ Finset.range (n % 32 + 1), ∑ cc : Fin 256, fNum (V c main_arg0) (V c main_arg1) (rowOf n hn r) (256 * J + cc.val)
    ∧ (outsAt V c n hn).2.2 (ValueIdx.ix2 r 0)
        = ∑ J ∈ Finset.range (n % 32 + 1), ∑ cc : Fin 256, fDeg (V c main_arg1) (rowOf n hn r) (256 * J + cc.val) := by
  obtain ⟨a1, a2⟩ := first_step V c ⟨n, hn⟩ h0 r
  constructor
  · refine a1.trans ((tile_num V c ⟨n, hn⟩ r).trans ?_)
    show ∑ cc : Fin 256, fNum (V c main_arg0) (V c main_arg1) (rowOf n hn r) (256 * (n % 32) + cc.val) = _
    rw [h0, Finset.sum_range_succ, Finset.sum_range_zero, zero_add]
  · refine a2.trans ((tile_deg V c ⟨n, hn⟩ r).trans ?_)
    show ∑ cc : Fin 256, fDeg (V c main_arg1) (rowOf n hn r) (256 * (n % 32) + cc.val) = _
    rw [h0, Finset.sum_range_succ, Finset.sum_range_zero, zero_add]

theorem inv (c : Dev nD) : ∀ (n : ℕ) (hn : n < cfg0.N) (r : Fin 2048),
    (outsAt V c n hn).2.1 (ValueIdx.ix2 r 0)
        = ∑ J ∈ Finset.range (n % 32 + 1), ∑ cc : Fin 256, fNum (V c main_arg0) (V c main_arg1) (rowOf n hn r) (256 * J + cc.val)
    ∧ (outsAt V c n hn).2.2 (ValueIdx.ix2 r 0)
        = ∑ J ∈ Finset.range (n % 32 + 1), ∑ cc : Fin 256, fDeg (V c main_arg1) (rowOf n hn r) (256 * J + cc.val)
  | 0, hn, r => inv_first V c 0 hn (Nat.zero_mod _) r
  | n + 1, hn, r => by
    by_cases h0 : (n + 1) % 32 = 0
    · exact inv_first V c (n + 1) hn h0 r
    · have hn' : n < cfg0.N := Nat.lt_of_succ_lt hn
      have hn128 : n + 1 < 128 := hn
      obtain ⟨i1, i2⟩ := inv c n hn' r
      obtain ⟨a1, a2⟩ := next_step V c ⟨n + 1, hn⟩ h0 r
      have hm : (n + 1) % 32 = n % 32 + 1 := by omega
      have hrow : rowOf (n + 1) hn r = rowOf n hn' r :=
        Fin.ext (by show 2048 * ((n + 1) / 32) + r.val = 2048 * (n / 32) + r.val; omega)
      constructor
      · refine a1.trans ?_
        rw [show (n + 1) % 32 + 1 = (n % 32 + 1) + 1 from by omega, Finset.sum_range_succ, hrow, ← i1, ← hrow, ← hm]
        exact congrArg _ (tile_num V c ⟨n + 1, hn⟩ r)
      · refine a2.trans ?_
        rw [show (n + 1) % 32 + 1 = (n % 32 + 1) + 1 from by omega, Finset.sum_range_succ, hrow, ← i2, ← hrow, ← hm]
        exact congrArg _ (tile_deg V c ⟨n + 1, hn⟩ r)

/-- What the result vector ends holding: row `i`'s quotient. -/
abbrev G (c : Dev nD) : S8192.Idx → EReal := fun i =>
  Ideal.div (Cert.Spec.num (V c main_arg0) (V c main_arg1) (i 0)) (Cert.Spec.deg (V c main_arg1) (i 0))

/-- At a last column block the output block holds, at row `r`, the row's quotient. -/
theorem out_eq (c : Dev nD) (t : Fin cfg0.N) (h1 : t.val % 32 = 31) (r : Fin 2048) :
    (outsAt V c t.val t.isLt).1 (ValueIdx.ix1 r)
      = Ideal.div (Cert.Spec.num (V c main_arg0) (V c main_arg1) (rowOf t.val (tlt t) r)) (Cert.Spec.deg (V c main_arg1) (rowOf t.val (tlt t) r)) := by
  obtain ⟨i1, i2⟩ := inv V c t.val t.isLt r
  rw [last_out V c t h1 r, i1, i2, h1, num_eq, deg_eq]

/-- What a last column block's point writes back is its block of `G`. -/
theorem flushed_eq (c : Dev nD) (t : Fin cfg0.N) (hf : (cfg0.win 3).flush t = true) :
    (dat0 (F := Ideal) V c).flushed 3 t = ((cfg0.win 3).blk t).view.read (Elt Ideal) (G V c) := by
  have h1 : t.val % 32 = 31 := (flush0_3 t).mp hf
  show (cfg0.win 3).cut (grid0.coords t) ((dat0 (F := Ideal) V c).after 3 t) = _
  rw [after_3]
  funext y
  have hy : (y 0).val < 2048 := (y 0).isLt
  rw [View.read_apply]
  refine Eq.trans ?_ (cast_eq _ _).symm
  show (outsAt V c t.val t.isLt).1 ((cfg0.win 3).xinj (grid0.coords t) y) = _
  have hx : (cfg0.win 3).xinj (grid0.coords t) y = ValueIdx.ix1 (⟨(y 0).val, hy⟩ : Fin 2048) := by
    funext a; match a with | ⟨0, _⟩ => rfl
  rw [hx, out_eq V c t h1]
  obtain ⟨e0, e1, e2, e3, e4, e5, e6⟩ := idx_facts t
  have he : (((cfg0.win 3).blk t).view.emb y) 0 = rowOf t.val (tlt t) ⟨(y 0).val, hy⟩ :=
    Fin.ext (by show win0_3.index t (0 : Fin 1) * 2048 + 1 * (y 0).val = 2048 * (t.val / 32) + (y 0).val; omega)
  show _ = Ideal.div (Cert.Spec.num (V c main_arg0) (V c main_arg1) ((((cfg0.win 3).blk t).view.emb y) 0)) (Cert.Spec.deg (V c main_arg1) ((((cfg0.win 3).blk t).view.emb y) 0))
  rw [he]

/-- An index of the result vector is in point `t`'s block iff its coordinate is in the block's range. -/
theorem mem_blk (t : Fin cfg0.N) (i : S8192.Idx) :
    i ∈ ((cfg0.win 3).blk t).view.set ↔ ∀ a : Fin 1, win0_3.index t a * S2048.size a ≤ (i a).val ∧ (i a).val < win0_3.index t a * S2048.size a + S2048.size a := by
  show i ∈ ((View.whole main_v0).slice (win0_3.rect t)).set ↔ _
  rw [View.set_slice_whole, Rect.mem_set_unit]
  exact Iff.rfl

/-- Every row of the result is in the block some last column block's point writes back. -/
theorem cover (i : S8192.Idx) : ∃ t : Fin cfg0.N, (cfg0.win 3).flush t = true ∧ i ∈ ((cfg0.win 3).blk t).view.set := by
  have hi : (i 0).val < 8192 := (i 0).isLt
  refine ⟨⟨32 * ((i 0).val / 2048) + 31, by show _ < 128; omega⟩, (flush0_3 _).mpr (by show (32 * ((i 0).val / 2048) + 31) % 32 = 31; omega), ?_⟩
  rw [mem_blk]
  obtain ⟨e0, e1, e2, e3, e4, e5, e6⟩ := idx_facts ⟨32 * ((i 0).val / 2048) + 31, by show _ < 128; omega⟩
  have e6' : win0_3.index ⟨32 * ((i 0).val / 2048) + 31, by show _ < 128; omega⟩ (0 : Fin 1) = (32 * ((i 0).val / 2048) + 31) / 32 := e6
  intro a
  match a with
  | ⟨0, _⟩ =>
    show win0_3.index _ (0 : Fin 1) * 2048 ≤ (i 0).val ∧ (i 0).val < win0_3.index _ (0 : Fin 1) * 2048 + 2048
    omega

/-- The result vector after the region: row `i` holds the quotient of the row's weighted distance sum by its degree. -/
theorem arrAt_out (c : Dev nD) (i : Fin 8192) :
    ((dat0 (F := Ideal) V c).arrAt 3 cfg0.N : S8192.Idx → EReal) (ValueIdx.ix1 i)
      = Ideal.div (Cert.Spec.num (V c main_arg0) (V c main_arg1) i) (Cert.Spec.deg (V c main_arg1) i) := by
  rw [(dat0 (F := Ideal) V c).arrAt_eq_of_cover 3 (G V c) (fun t hf => flushed_eq V c t hf) cover]

end Cert.KernelIdeal.Value2

end
-- ==== Proof.RefImports.lean ====
/- The reference program's run and its stages read at an index are brought in here once, so that
   every module that speaks of the reference's value shares one import. -/
import proofs.«178589_j75651553951784_1_alg».proof.Proof.Gen.ReferenceIdeal.Run
import proofs.«178589_j75651553951784_1_alg».proof.Proof.Gen.ReferenceIdeal.Read
-- ==== Proof.RefValue.lean ====
/-
  What the plain program computes, in the specification's words.

  The plain program forms, for every pair of rows (p, q), the clipped and floored distance
  dist x p q, multiplies it by the adjacency entry a_pq read as a real number, divides by the
  degree of row p, sums all 8192² quotients, negates, and adds a second term that depends on the
  embedding table only. Reading each stage at an index (ix2 p q) and identifying the index maps
  of the layout operations with coordinate pairs gives the stages below; the last theorem is the
  value of the whole program: −(allSum x a) plus the second term, which is left as it stands.
-/
import proofs.«178589_j75651553951784_1_alg».proof.Proof.Spec
import proofs.«178589_j75651553951784_1_alg».proof.Proof.RefImports
import Idealize.ShloMosaic.Lib.ValueIdx
import Idealize.ShloMosaic.Lib.Pipeline.Value
import Idealize.ShloMosaic.PureOps.Ideal.Laws

noncomputable section

namespace Cert.RefValue

open Idealize.ShloMosaic Cert.ReferenceIdeal Cert.ReferenceIdeal.Read Cert.Spec

/-! ## The index maps of the layout operations, at a coordinate pair -/

theorem idx_rowsq (p : Fin 8192) (k : Fin 512) : idx_main_v1 (ValueIdx.ix1 p) k = ValueIdx.ix2 p k :=
  funext fun a => Fin.ext (by match a with | ⟨0, _⟩ => rfl | ⟨1, _⟩ => rfl)

theorem idx_left (p q : Fin 8192) : idx_main_v4 (idx_main_v6 (ValueIdx.ix2 p q)) = ValueIdx.ix1 p :=
  funext fun a => Fin.ext (by match a with | ⟨0, _⟩ => rfl)

theorem idx_right (p q : Fin 8192) : idx_main_v5 (idx_main_v7 (ValueIdx.ix2 p q)) = ValueIdx.ix1 q :=
  funext fun a => Fin.ext (by match a with | ⟨0, _⟩ => rfl)

theorem idx_dot_left (p q : Fin 8192) (k : Fin 512) : lidx_main_v3 (ValueIdx.ix2 p q) k = ValueIdx.ix2 p k :=
  funext fun a => Fin.ext (by match a with | ⟨0, _⟩ => rfl | ⟨1, _⟩ => rfl)

theorem idx_dot_right (p q : Fin 8192) (k : Fin 512) :
    idx_main_v2 (ridx_main_v3 (ValueIdx.ix2 p q) k) = ValueIdx.ix2 q k :=
  funext fun a => Fin.ext (by match a with | ⟨0, _⟩ => rfl | ⟨1, _⟩ => rfl)

theorem idx_degsum (p q : Fin 8192) : idx_main_v17 (ValueIdx.ix1 p) q = ValueIdx.ix2 p q :=
  funext fun a => Fin.ext (by match a with | ⟨0, _⟩ => rfl | ⟨1, _⟩ => rfl)

theorem idx_degbcast (p q : Fin 8192) : idx_main_v18 (idx_main_v20 (ValueIdx.ix2 p q)) = ValueIdx.ix1 p :=
  funext fun a => Fin.ext (by match a with | ⟨0, _⟩ => rfl)

/-! ## The stages -/

/-- The row squares: |x_p|². -/
theorem rowsq_eq (x0 : FVec Ideal SE .f32) (p : Fin 8192) :
    val_main_v1 (F := Ideal) x0 (ValueIdx.ix1 p) = sq x0 p := by
  rw [val_main_v1_apply, val_main_cst_apply]
  simp only [val_main_v0_apply, idx_rowsq, Ideal.mulf_def, Ideal.ofBits_def, Ideal.ofBits_zero_f32, zero_add]
  rfl

/-- The product of the table with its transpose: ⟨x_p, x_q⟩. -/
theorem gram_eq (x0 : FVec Ideal SE .f32) (p q : Fin 8192) :
    val_main_v3 (F := Ideal) x0 (ValueIdx.ix2 p q) = gram x0 p q := by
  rw [val_main_v3_apply]
  simp only [val_main_v2_apply, idx_dot_left, idx_dot_right]
  rfl

/-- The distance stage. -/
theorem dist_eq (x0 : FVec Ideal SE .f32) (p q : Fin 8192) :
    val_main_v15 (F := Ideal) x0 (ValueIdx.ix2 p q) = dist x0 p q := by
  rw [val_main_v15_apply, val_main_v14_apply, val_main_v13_apply, val_main_cst_2_apply, val_main_v12_apply,
    val_main_call0_v1_apply, val_main_call0_v0_apply, val_main_cst_1_apply, val_main_v11_apply, val_main_v8_apply,
    val_main_v6_apply, val_main_v4_apply, val_main_v7_apply, val_main_v5_apply, val_main_v10_apply,
    val_main_v9_apply, val_main_cst_0_apply, idx_left, idx_right, rowsq_eq, rowsq_eq, gram_eq]
  simp only [Ideal.hostUnary_sqrt_def, Ideal.maximumf_def, Ideal.subf_def, Ideal.addf_def, Ideal.mulf_def,
    Ideal.ofBits_def, Ideal.ofBits_zero_f32]
  rfl

/-- The adjacency entry as a real number. -/
theorem adj_eq (x1 : IVec SA 32) (p q : Fin 8192) :
    val_main_v16 (F := Ideal) x1 (ValueIdx.ix2 p q) = adjf x1 p q := rfl

/-- The degree stage. -/
theorem deg_eq (x1 : IVec SA 32) (p : Fin 8192) :
    val_main_v17 (F := Ideal) x1 (ValueIdx.ix1 p) = deg x1 p := by
  rw [val_main_v17_apply, val_main_cst_3_apply]
  simp only [idx_degsum, adj_eq, Ideal.ofBits_def, Ideal.ofBits_zero_f32, zero_add]
  rfl

/-- The quotient stage. -/
theorem quot_eq (x0 : FVec Ideal SE .f32) (x1 : IVec SA 32) (p q : Fin 8192) :
    val_main_v21 (F := Ideal) x0 x1 (ValueIdx.ix2 p q)
      = Ideal.div (dist x0 p q * adjf x1 p q) (deg x1 p) := by
  rw [val_main_v21_apply, val_main_v19_apply, val_main_v20_apply, val_main_v18_apply, idx_degbcast, dist_eq,
    adj_eq, deg_eq]
  rfl

/-- The sum of all quotients. -/
theorem total_eq (x0 : FVec Ideal SE .f32) (x1 : IVec SA 32) (i : S_.Idx) :
    val_main_v22 (F := Ideal) x0 x1 i = allSum x0 x1 := by
  rw [val_main_v22_apply, val_main_cst_4_apply, ValueIdx.sum_idx2]
  simp only [quot_eq, Ideal.ofBits_def, Ideal.ofBits_zero_f32, zero_add]
  rfl

/-- The plain program's value. -/
theorem result_eq (x0 : FVec Ideal SE .f32) (x1 : IVec SA 32) (i : S_.Idx) :
    val_main_v33 (F := Ideal) x0 x1 i = -(allSum x0 x1) + val_main_v32 (F := Ideal) x0 i := by
  rw [val_main_v33_apply, val_main_v23_apply, total_eq]
  rfl

end Cert.RefValue

end
-- ==== Proof.Algebra.lean ====
/-
  The one algebraic law of the pairwise-distance neighbourhood term: when every entry of the embedding
  table is a real number and no row's degree is zero, every distance, every weighted distance and every
  degree is a real number, so dividing a row's finite sum by its (nonzero, real) degree is the same as
  dividing each summand: (Σ_j t_ij) / d_i = Σ_j (t_ij / d_i). Summing over the rows gives
  `rowsSum x a = allSum x a`.
-/
import proofs.«178589_j75651553951784_1_alg».proof.Proof.Spec
import Idealize.ShloMosaic.PureOps.Ideal

noncomputable section

namespace Cert.Spec

open Idealize.ShloMosaic

/-- An extended real that is (the coercion of) a real number. -/
def IsReal (u : EReal) : Prop := ∃ r : ℝ, u = (r : EReal)

theorem IsReal.zero : IsReal 0 := ⟨0, rfl⟩

theorem IsReal.coe (r : ℝ) : IsReal (r : EReal) := ⟨r, rfl⟩

theorem IsReal.add {u v : EReal} (hu : IsReal u) (hv : IsReal v) : IsReal (u + v) := by
  obtain ⟨r, rfl⟩ := hu; obtain ⟨s, rfl⟩ := hv
  exact ⟨r + s, (EReal.coe_add r s).symm⟩

theorem IsReal.sub {u v : EReal} (hu : IsReal u) (hv : IsReal v) : IsReal (u - v) := by
  obtain ⟨r, rfl⟩ := hu; obtain ⟨s, rfl⟩ := hv
  exact ⟨r - s, (EReal.coe_sub r s).symm⟩

theorem IsReal.mul {u v : EReal} (hu : IsReal u) (hv : IsReal v) : IsReal (u * v) := by
  obtain ⟨r, rfl⟩ := hu; obtain ⟨s, rfl⟩ := hv
  exact ⟨r * s, (EReal.coe_mul r s).symm⟩

theorem coe_max_real (r s : ℝ) : ((max r s : ℝ) : EReal) = max (r : EReal) (s : EReal) :=
  EReal.coe_strictMono.monotone.map_max

/-- A finite sum of real numbers is a real number. -/
theorem IsReal.sum {ι : Type*} (s : Finset ι) (t : ι → EReal) (ht : ∀ j ∈ s, IsReal (t j)) :
    IsReal (∑ j ∈ s, t j) := by
  classical
  induction s using Finset.induction_on with
  | empty => simpa using IsReal.zero
  | insert a s ha ih =>
    rw [Finset.sum_insert ha]
    exact (ht a (Finset.mem_insert_self a s)).add (ih (fun j hj => ht j (Finset.mem_insert_of_mem hj)))

/-- The root of a real number clipped below at zero (and then floored at another real) is a real number. -/
theorem isReal_sqrt_clip {u e : EReal} (hu : IsReal u) (he : IsReal e) :
    IsReal (Ideal.sqrt (max (max 0 u) e)) := by
  obtain ⟨r, rfl⟩ := hu; obtain ⟨s, rfl⟩ := he
  have h : max (max (0 : EReal) (r : EReal)) (s : EReal) = ((max (max 0 r) s : ℝ) : EReal) := by
    rw [coe_max_real, coe_max_real, EReal.coe_zero]
  rw [h, Ideal.sqrt_coe, if_neg (not_lt.mpr (le_max_of_le_left (le_max_left 0 r)))]
  exact ⟨_, rfl⟩

/-- A pattern whose exponent field is not all ones denotes a real number. -/
theorem isReal_ieee (e m : Nat) {w : Nat} (b : BitVec w)
    (h : (b.extractLsb' m e).toNat ≠ 2 ^ e - 1) : IsReal (Ideal.ieee e m b) := by
  unfold Ideal.ieee
  simp only []
  rw [if_neg h]
  split_ifs <;> exact ⟨_, rfl⟩

theorem isReal_two : IsReal two := by
  show IsReal (Ideal.ieee 8 23 (0x40000000#32))
  exact isReal_ieee 8 23 _ (by decide)

theorem isReal_eps : IsReal eps := by
  show IsReal (Ideal.ieee 8 23 (0x2B8CBCCC#32))
  exact isReal_ieee 8 23 _ (by decide)

theorem isReal_emb (x : FVec Ideal SE .f32) (hx : RealEntries x) (i : Fin 8192) (k : Fin 512) :
    IsReal (emb x i k) := hx i k

theorem isReal_adjf (a : IVec SA 32) (i j : Fin 8192) : IsReal (adjf a i j) := ⟨_, rfl⟩

theorem isReal_sq (x : FVec Ideal SE .f32) (hx : RealEntries x) (i : Fin 8192) : IsReal (sq x i) :=
  IsReal.sum _ _ (fun k _ => (isReal_emb x hx i k).mul (isReal_emb x hx i k))

theorem isReal_gram (x : FVec Ideal SE .f32) (hx : RealEntries x) (i j : Fin 8192) : IsReal (gram x i j) :=
  IsReal.sum _ _ (fun k _ => (isReal_emb x hx i k).mul (isReal_emb x hx j k))

theorem isReal_dist (x : FVec Ideal SE .f32) (hx : RealEntries x) (i j : Fin 8192) : IsReal (dist x i j) :=
  isReal_sqrt_clip (((isReal_sq x hx i).add (isReal_sq x hx j)).sub (isReal_two.mul (isReal_gram x hx i j)))
    isReal_eps

theorem isReal_deg (a : IVec SA 32) (i : Fin 8192) : IsReal (deg a i) :=
  IsReal.sum _ _ (fun j _ => isReal_adjf a i j)

/-- Multiplication by a real number distributes over a finite sum of real numbers. -/
theorem sum_mul_real {ι : Type*} (s : Finset ι) (t : ι → EReal) (c : ℝ)
    (ht : ∀ j ∈ s, IsReal (t j)) :
    (∑ j ∈ s, t j) * (c : EReal) = ∑ j ∈ s, t j * (c : EReal) := by
  classical
  induction s using Finset.induction_on with
  | empty => simp
  | insert a s ha ih =>
    have hs : ∀ j ∈ s, IsReal (t j) := fun j hj => ht j (Finset.mem_insert_of_mem hj)
    rw [Finset.sum_insert ha, Finset.sum_insert ha, ← ih hs]
    obtain ⟨r, hr⟩ := ht a (Finset.mem_insert_self a s)
    obtain ⟨q, hq⟩ := IsReal.sum s t hs
    rw [hr, hq, ← EReal.coe_add, ← EReal.coe_mul, ← EReal.coe_mul, ← EReal.coe_mul, ← EReal.coe_add,
      add_mul]

/-- Division by a nonzero real number distributes over a finite sum of real numbers. -/
theorem sum_div_distrib {ι : Type*} (s : Finset ι) (t : ι → EReal) (d : EReal)
    (ht : ∀ j ∈ s, IsReal (t j)) (hd : IsReal d) (hd0 : d ≠ 0) :
    Ideal.div (∑ j ∈ s, t j) d = ∑ j ∈ s, Ideal.div (t j) d := by
  obtain ⟨y, rfl⟩ := hd
  have hy : y ≠ 0 := fun h => hd0 (by rw [h, EReal.coe_zero])
  rw [Ideal.div_coe hy, sum_mul_real s t _ ht]
  exact Finset.sum_congr rfl (fun j _ => (Ideal.div_coe hy (t j)).symm)

/-- The sum of the row quotients is the sum of all entry quotients. -/
theorem rows_sum_eq (x : FVec Ideal Cert.Spec.SE .f32) (a : IVec Cert.Spec.SA 32)
    (hx : Cert.Spec.RealEntries x) (ha : Cert.Spec.DegNonzero a) :
    Cert.Spec.rowsSum x a = Cert.Spec.allSum x a := by
  unfold rowsSum allSum
  refine Finset.sum_congr rfl (fun i _ => ?_)
  unfold num
  exact sum_div_distrib Finset.univ _ _
    (fun j _ => (isReal_dist x hx i j).mul (isReal_adjf a i j)) (isReal_deg a i) (ha i)

end Cert.Spec

end
-- ==== Proof.PreFacts.lean ====
/-
  What the precondition says, as mathematics.

  The precondition is one bit: the conjunction of "every entry of the embedding table has absolute value
  below +∞" and "no row sum of the integer adjacency table, taken as a sum of reals, equals 0". Over the
  extended reals the absolute value of y is max y (−y), which is +∞ at both infinities; so the first conjunct
  says every entry is a real number. The row sum of the second conjunct starts from the word 0, which denotes
  the real 0, and adds the 8192 signed words of the row, each as the real it denotes: it is the row's degree.
  A conjunction of bits over an index set is 1 only when every bit is 1, which gives the two facts entrywise.
-/
import proofs.«178589_j75651553951784_1_alg».proof.Proof.Spec
import proofs.«178589_j75651553951784_1_alg».proof.Pre_finite_inputs
import proofs.«178589_j75651553951784_1_alg».proof.Proof.Gen.Pre_finite_inputs
import Idealize.ShloMosaic.Lib.ReduceAll
import Idealize.ShloMosaic.PureOps.Ideal.Laws
import Idealize.ShloMosaic.Lib.ValueIdx

noncomputable section

namespace Cert.PreFacts

open Idealize.ShloMosaic

instance : Subsingleton Cert.Pre_finite_inputs.S_.Idx := ⟨fun a b => funext fun d => d.elim0⟩

/-- The single-precision word 0x7F800000 denotes +∞. -/
theorem ofBits_inf : Ideal.ofBits .f32 0x7F800000#32 = (⊤ : EReal) := by simp [Ideal.ofBits, Ideal.ieee]

/-- A one-bit word built from a decided proposition is 1 only when the proposition holds. -/
theorem of_ofBool_decide {p : Prop} [Decidable p] (e : BitVec.ofBool (decide p) = 1#1) : p := by
  by_contra hn
  rw [decide_eq_false hn] at e
  exact absurd e (by decide)

/-- An extended real whose absolute value max y (−y) is below +∞ is a real number. -/
theorem real_of_abs_lt_top (y : EReal) (hlt : max y (-y) < ⊤) : ∃ r : ℝ, y = (r : EReal) := by
  induction y using EReal.rec with
  | bot => simp at hlt
  | coe r => exact ⟨r, rfl⟩
  | top => simp at hlt

theorem of_pre [hP : Cert.Pre_finite_inputs.Facts]
    (x : FVec Ideal Cert.Spec.SE .f32) (a : IVec Cert.Spec.SA 32)
    (h : Cert.Pre_finite_inputs.fn (F := Ideal) x a = (fun _ => 1#1)) :
    Cert.Spec.RealEntries x ∧ Cert.Spec.DegNonzero a := by
  have h0 := congrFun h ValueIdx.ix0
  dsimp only [Cert.Pre_finite_inputs.fn] at h0
  change IntOp.andi _ _ = 1#1 at h0
  obtain ⟨h3, h8⟩ := IntOp.andi_eq_one.1 h0
  have e3 := Host.reduce_andi_all _ _ _ _ _ h3
  have e8 := Host.reduce_andi_all _ _ _ _ _ h8
  clear h0 h3 h8 h
  refine ⟨fun i k => ?_, fun i => ?_⟩
  · have e := e3 (ValueIdx.ix2 i k)
    clear e3 e8
    change Ideal.cmp .olt (max (x (ValueIdx.ix2 i k)) (-(x (ValueIdx.ix2 i k)))) (Ideal.ofBits .f32 0x7F800000#32) = 1#1 at e
    rw [ofBits_inf] at e
    exact real_of_abs_lt_top _ (of_ofBool_decide e)
  · have e := e8 (ValueIdx.ix1 i)
    clear e3 e8
    change Ideal.cmp .une (Ideal.hostReduceAdd hP.reducesTo_S8192x8192_S8192_d1 (fun j => (((a j).toInt : ℝ) : EReal)) (Ideal.ofBits .f32 0#32) (ValueIdx.ix1 i)) (Ideal.ofBits .f32 0#32) = 1#1 at e
    rw [Ideal.hostReduceAdd_single hP.reducesTo_S8192x8192_S8192_d1 (by decide), Ideal.ofBits_zero_f32, zero_add] at e
    have hne := of_ofBool_decide e
    refine fun hz => hne (Eq.trans ?_ hz)
    unfold Cert.Spec.deg Cert.Spec.adjf
    refine Finset.sum_congr rfl fun k _ => ?_
    exact congrArg (fun j => (((a j).toInt : ℝ) : EReal))
      (funext fun d => Fin.ext (by match d with | ⟨0, _⟩ => rfl | ⟨1, _⟩ => rfl))

end Cert.PreFacts

end
-- ==== Proof.Bridge.lean ====
/-
  The two programs compute one number.

  The tiled program ends at `−(Σ_i num_i / deg_i) + tail(x)`: its result vector holds the row quotients (the
  kernel's value, read off the pipeline's write-backs), and the host operations after the region negate their
  sum and add the second half of the loss. The plain program ends at `−(Σ_{i,j} dist_ij · a_ij / deg_i) + tail(x)`
  with the same second half, operation for operation. Under the precondition — every embedding entry a real
  number, no row degree zero — the two sums agree (division by a nonzero real distributes over a finite sum
  of reals), so the results are equal as extended reals.
-/
import proofs.«178589_j75651553951784_1_alg».proof.Proof.KI.Tail
import proofs.«178589_j75651553951784_1_alg».proof.Proof.KI.KernelValue
import proofs.«178589_j75651553951784_1_alg».proof.Proof.RefValue
import proofs.«178589_j75651553951784_1_alg».proof.Proof.Algebra
import proofs.«178589_j75651553951784_1_alg».proof.Proof.PreFacts

noncomputable section

namespace Cert.Bridge

open Idealize.ShloMosaic Idealize.ShloMosaic.TcCoe Idealize.SL.Sem
open Cert.KernelIdeal Cert.KernelIdeal.Gen Cert.KernelIdeal.Hand

/-- A rank-1 index set is its one coordinate's range, so a sum over it is the sum over the coordinate. -/
def idxEquiv1 {n : Nat} : (⟨1, ![n]⟩ : Shape).Idx ≃ Fin n where
  toFun i := i 0
  invFun a := ValueIdx.ix1 a
  left_inv i := (ValueIdx.eq_ix1 i).symm
  right_inv _ := rfl
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

/-- The second half of the loss is the same host operations in both programs. -/
theorem compTail_eq (x : FVec Ideal S8192x512 .f32) :
    compTail (F := Ideal) x = Cert.ReferenceIdeal.Read.val_main_v32 (F := Ideal) x := rfl

/-- The tiled program's result from its result vector: minus the sum of the vector's entries, plus the second half. -/
theorem lossOf_apply (rows : FVec Ideal S8192 .f32) (x : FVec Ideal S8192x512 .f32) (i : S_.Idx) :
    lossOf (F := Ideal) rows x i = -(∑ r : Fin 8192, rows (ValueIdx.ix1 r)) + compTail (F := Ideal) x i := by
  unfold lossOf
  show FloatOps.addf (FloatOps.negf (Host.reduceAdd rows (constant S_ .f32 0x00000000#32) reducesTo_S8192_S_d0 h_S_ i)) (compTail (F := Ideal) x i) = _
  simp only [Host.reduceAdd, Ideal.hostReduceAdd_def]
  rw [Ideal.hostReduceAdd_total reducesTo_S8192_S_d0 (fun b => b.elim0) rows _ i, sum_idx1]
  simp only [Ideal.addf_def, Ideal.negf_def, constant, Ideal.ofBits_def, Ideal.ofBits_zero_f32, zero_add]

/-- The result vector the region leaves on core `c`, at its literal type. -/
def rowsOf (m : (ℓ : Loc nD τ sig) → Buf (Elt Ideal) ℓ) (ρ : Dev nD → PrngReg) (c : Dev nD) : FVec Ideal S8192 .f32 :=
  (dat0 (F := Ideal) (V0 m ρ) c).arrAt 3 cfg0.N

/-- It holds the row quotients. -/
theorem rowsOf_apply (m : (ℓ : Loc nD τ sig) → Buf (Elt Ideal) ℓ) (ρ : Dev nD → PrngReg) (c : Dev nD) (r : Fin 8192) :
    rowsOf m ρ c (ValueIdx.ix1 r)
      = Ideal.div (Cert.Spec.num (m ((c.tc : Thread nD τ).loc main_arg0)) (m ((c.tc : Thread nD τ).loc main_arg1)) r) (Cert.Spec.deg (m ((c.tc : Thread nD τ).loc main_arg1)) r) :=
  Cert.KernelIdeal.Value2.arrAt_out (V0 m ρ) c r

/-- THE BRIDGE. From a launch memory whose arguments satisfy the precondition, the tiled program's result — the
    host operations after the region applied to the result vector the pipeline leaves — is the plain program's
    result term at the same arguments. -/
theorem kernel_value [hP : Cert.Pre_finite_inputs.Facts] (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1)) = (fun _ => 1#1)) :
    lossOf (F := Ideal) (rowsOf m ρ c) (m ((c.tc : Thread nD τ).loc main_arg0))
      = Cert.ReferenceIdeal.Read.val_main_v33 (F := Ideal) (m ((c.tc : Thread nD τ).loc main_arg0)) (m ((c.tc : Thread nD τ).loc main_arg1)) := by
  obtain ⟨hx, ha⟩ := Cert.PreFacts.of_pre (m ((c.tc : Thread nD τ).loc main_arg0)) (m ((c.tc : Thread nD τ).loc main_arg1)) hpre
  have hsum : (∑ r : Fin 8192, rowsOf m ρ c (ValueIdx.ix1 r))
      = Cert.Spec.rowsSum (m ((c.tc : Thread nD τ).loc main_arg0)) (m ((c.tc : Thread nD τ).loc main_arg1)) :=
    Finset.sum_congr rfl fun r _ => rowsOf_apply m ρ c r
  have hlaw := Cert.Spec.rows_sum_eq (m ((c.tc : Thread nD τ).loc main_arg0)) (m ((c.tc : Thread nD τ).loc main_arg1)) hx ha
  funext i
  rw [Cert.RefValue.result_eq, lossOf_apply, compTail_eq, hsum, hlaw]

end Cert.Bridge

end
-- ==== Proof.lean ====
/-
  The certificate: the tiled neighbourhood-loss kernel against its plain reference.

  The precondition: every float input is finite, and every row of the adjacency table has a nonzero degree —
  the reference divides by the degree, so at a zero degree the reference itself is not a number (and there the
  two programs' readings over the extended reals differ).

  The three frames: each program runs to the end, faults nowhere and leaves its two arguments unchanged. The
  kernel programs' frames come from the region's launch over the host segments (the body obligation at every
  grid point, the embedding table shared by two windows at half shares); the reference's from its run.
  `preserves` is trivial (the idealized kernel is the kernel's own text). `algebraic`: the kernel's result
  vector holds the row quotients num_i / deg_i, the host tail negates their sum and adds the second half of
  the loss; the reference sums all entry quotients; under the precondition the two sums are equal.
-/
import proofs.«178589_j75651553951784_1_alg».proof.Defs
import proofs.«178589_j75651553951784_1_alg».proof.Proof.Gen.Kernel
import proofs.«178589_j75651553951784_1_alg».proof.Proof.Gen.KernelIdeal
import proofs.«178589_j75651553951784_1_alg».proof.Proof.Gen.ReferenceIdeal
import proofs.«178589_j75651553951784_1_alg».proof.Proof.Gen.Pre_finite_inputs
import proofs.«178589_j75651553951784_1_alg».proof.Proof.KB.Run
import proofs.«178589_j75651553951784_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen Cert.KernelIdeal.Hand in
theorem algebraic : Cert.algebraic_KernelIdeal_ReferenceIdeal := by
  intro m ρ m' ρ' hpre hagree
  refine ⟨fun c => lossOf (F := Ideal) (Cert.Bridge.rowsOf m ρ c) (m ((c.tc : Thread nD τ).loc main_arg0)), ?_, ?_⟩
  · refine (θ_run Cert.KernelIdeal.defs _ _).mono (fun r h c => ⟨?_, ?_, ?_⟩) (run_all (F := Ideal) m ρ)
    · refine (h c _ (mem_uc main_v12 (by decide))).trans ((W4_result m ρ c).trans ?_)
      rw [W1_out, W1_of_ne m ρ c main_arg0 (by decide)]
      rfl
    · exact (h c _ (mem_uc main_arg0 (by decide))).trans (W4_main_arg0 m ρ c)
    · exact (h c _ (mem_uc main_arg1 (by decide))).trans (W4_main_arg1 m ρ c)
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.Read.val_main_v33_eq]
    exact (Cert.Bridge.kernel_value m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
